-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v80 : IVec S_ 1) (main_v83 : IVec S_ 1) : IVec S_ 1 :=
  let main_v84 : IVec S_ 1 := andi main_v80 main_v83
  main_v84

def fn_part4 {F : FTy → Type} [FloatOps F] (main_arg2 : IVec S800000 32) (main_arg4 : IVec S800000 32) (main_v63 : IVec S_ 1) (main_v67 : IVec S_ 1) : IVec S_ 1 :=
  let main_v68 : IVec S_ 1 := andi main_v63 main_v67
  let main_c_26 : IVec S_ 32 := constantI S_ 32 0#32
  let main_v69 : IVec S800000 32 := broadcastInDim S800000 ![] bcast_S_S800000 main_c_26
  let main_v70 : IVec S800000 1 := cmpi .sge main_arg2 main_v69
  let main_c_27 : IVec S_ 1 := constantI S_ 1 1#1
  let main_v71 : IVec S_ 1 := (fun x v => Host.reduce IntOp.andi x v reducesTo_S800000_S_d0 h_S_) main_v70 main_c_27
  let main_v72 : IVec S_ 1 := andi main_v68 main_v71
  let main_c_28 : IVec S_ 32 := constantI S_ 32 100000#32
  let main_v73 : IVec S800000 32 := broadcastInDim S800000 ![] bcast_S_S800000 main_c_28
  let main_v74 : IVec S800000 1 := cmpi .slt main_arg2 main_v73
  let main_c_29 : IVec S_ 1 := constantI S_ 1 1#1
  let main_v75 : IVec S_ 1 := (fun x v => Host.reduce IntOp.andi x v reducesTo_S800000_S_d0 h_S_) main_v74 main_c_29
  let main_v76 : IVec S_ 1 := andi main_v72 main_v75
  let main_c_30 : IVec S_ 32 := constantI S_ 32 0#32
  let main_v77 : IVec S800000 32 := broadcastInDim S800000 ![] bcast_S_S800000 main_c_30
  let main_v78 : IVec S800000 1 := cmpi .sge main_arg4 main_v77
  let main_c_31 : IVec S_ 1 := constantI S_ 1 1#1
  let main_v79 : IVec S_ 1 := (fun x v => Host.reduce IntOp.andi x v reducesTo_S800000_S_d0 h_S_) main_v78 main_c_31
  let main_v80 : IVec S_ 1 := andi main_v76 main_v79
  let main_c_32 : IVec S_ 32 := constantI S_ 32 100000#32
  let main_v81 : IVec S800000 32 := broadcastInDim S800000 ![] bcast_S_S800000 main_c_32
  let main_v82 : IVec S800000 1 := cmpi .slt main_arg4 main_v81
  let main_c_33 : IVec S_ 1 := constantI S_ 1 1#1
  let main_v83 : IVec S_ 1 := (fun x v => Host.reduce IntOp.andi x v reducesTo_S800000_S_d0 h_S_) main_v82 main_c_33
  fn_part5 (F := F) main_v80 main_v83

def fn_part3 {F : FTy → Type} [FloatOps F] (main_arg2 : IVec S800000 32) (main_arg4 : IVec S800000 32) (main_arg15 : FVec F S256x256 .f32) (main_arg16 : FVec F S256x128 .f32) (main_arg17 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x128 .f32 := Host.absf main_arg16
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg4 main_v63 main_v67

def fn_part2 {F : FTy → Type} [FloatOps F] (main_arg2 : IVec S800000 32) (main_arg4 : IVec S800000 32) (main_arg11 : FVec F S256 .f32) (main_arg12 : FVec F S128x256 .f32) (main_arg13 : FVec F S256x256 .f32) (main_arg14 : FVec F S256 .f32) (main_arg15 : FVec F S256x256 .f32) (main_arg16 : FVec F S256x128 .f32) (main_arg17 : FVec F S128 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg12
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg2 main_arg4 main_arg15 main_arg16 main_arg17 main_v48 main_v49 main_v50

def fn_part1 {F : FTy → Type} [FloatOps F] (main_arg2 : IVec S800000 32) (main_arg4 : IVec S800000 32) (main_arg8 : FVec F S256 .f32) (main_arg9 : FVec F S128x256 .f32) (main_arg10 : FVec F S128x256 .f32) (main_arg11 : FVec F S256 .f32) (main_arg12 : FVec F S128x256 .f32) (main_arg13 : FVec F S256x256 .f32) (main_arg14 : FVec F S256 .f32) (main_arg15 : FVec F S256x256 .f32) (main_arg16 : FVec F S256x128 .f32) (main_arg17 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg10
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg2 main_arg4 main_arg11 main_arg12 main_arg13 main_arg14 main_arg15 main_arg16 main_arg17 main_v33

def fn {F : FTy → Type} [FloatOps F] (main_arg0 : FVec F S100000x128 .f32) (main_arg1 : FVec F S50000x128 .f32) (main_arg2 : IVec S800000 32) (main_arg3 : IVec S800000 32) (main_arg4 : IVec S800000 32) (main_arg5 : IVec S800000 32) (main_arg6 : FVec F S800000 .f32) (main_arg7 : FVec F S128x256 .f32) (main_arg8 : FVec F S256 .f32) (main_arg9 : FVec F S128x256 .f32) (main_arg10 : FVec F S128x256 .f32) (main_arg11 : FVec F S256 .f32) (main_arg12 : FVec F S128x256 .f32) (main_arg13 : FVec F S256x256 .f32) (main_arg14 : FVec F S256 .f32) (main_arg15 : FVec F S256x256 .f32) (main_arg16 : FVec F S256x128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg6
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x256 .f32 := Host.absf main_arg7
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg2 main_arg4 main_arg8 main_arg9 main_arg10 main_arg11 main_arg12 main_arg13 main_arg14 main_arg15 main_arg16 main_arg17 main_v13 main_v16
-- ==== Kernel.lean ====
abbrev S100000x128 : Shape := ⟨2, ![100000, 128]⟩
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S50000x256 : Shape := ⟨2, ![50000, 256]⟩
abbrev S800000x256 : Shape := ⟨2, ![800000, 256]⟩
abbrev S1x128 : Shape := ⟨2, ![1, 128]⟩

abbrev nBuf : Space → Nat
  | .hbm => 109
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S128x256, .f32⟩
  | .hbm, ⟨8, _⟩ => ⟨S256, .f32⟩
  | .hbm, ⟨9, _⟩ => ⟨S128x256, .f32⟩
  | .hbm, ⟨10, _⟩ => ⟨S128x256, .f32⟩
  | .hbm, ⟨11, _⟩ => ⟨S256, .f32⟩
  | .hbm, ⟨12, _⟩ => ⟨S128x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256x128, .f32⟩
  | .hbm, ⟨17, _⟩ => ⟨S128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S100000x128, .f32⟩
  | .hbm, ⟨46, _⟩ => ⟨S800000x1, .i32⟩
  | .hbm, ⟨47, _⟩ => ⟨S100000x128, .f32⟩
  | .hbm, ⟨48, _⟩ => ⟨S1x256, .f32⟩
  | .hbm, ⟨49, _⟩ => ⟨S100000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S1, .i32⟩
  | .hbm, ⟨59, _⟩ => ⟨S_, .i32⟩
  | .hbm, ⟨60, _⟩ => ⟨S800000x1, .i32⟩
  | .hbm, ⟨61, _⟩ => ⟨S800000x1, .i1⟩
  | .hbm, ⟨62, _⟩ => ⟨S1x1, .i32⟩
  | .hbm, ⟨63, _⟩ => ⟨S800000x1, .i32⟩
  | .hbm, ⟨64, _⟩ => ⟨S800000x1, .i1⟩
  | .hbm, ⟨65, _⟩ => ⟨S800000x1, .i1⟩
  | .hbm, ⟨66, _⟩ => ⟨S_, .i1⟩
  | .hbm, ⟨67, _⟩ => ⟨S800000, .i1⟩
  | .hbm, ⟨68, _⟩ => ⟨S800000x128, .f32⟩
  | .hbm, ⟨69, _⟩ => ⟨S800000x128, .i1⟩
  | .hbm, ⟨70, _⟩ => ⟨S_, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S1x256, .f32⟩
  | .hbm, ⟨78, _⟩ => ⟨S50000x256, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S1, .i32⟩
  | .hbm, ⟨88, _⟩ => ⟨S_, .i32⟩
  | .hbm, ⟨89, _⟩ => ⟨S800000x1, .i32⟩
  | .hbm, ⟨90, _⟩ => ⟨S800000x1, .i1⟩
  | .hbm, ⟨91, _⟩ => ⟨S1x1, .i32⟩
  | .hbm, ⟨92, _⟩ => ⟨S800000x1, .i32⟩
  | .hbm, ⟨93, _⟩ => ⟨S800000x1, .i1⟩
  | .hbm, ⟨94, _⟩ => ⟨S800000x1, .i1⟩
  | .hbm, ⟨95, _⟩ => ⟨S_, .i1⟩
  | .hbm, ⟨96, _⟩ => ⟨S800000, .i1⟩
  | .hbm, ⟨97, _⟩ => ⟨S800000x256, .f32⟩
  | .hbm, ⟨98, _⟩ => ⟨S800000x256, .i1⟩
  | .hbm, ⟨99, _⟩ => ⟨S_, .f32⟩
  | .hbm, ⟨100, _⟩ => ⟨S800000x256, .f32⟩
  | .hbm, ⟨101, _⟩ => ⟨S800000x256, .f32⟩
  | .hbm, ⟨102, _⟩ => ⟨S_, .f32⟩
  | .hbm, ⟨103, _⟩ => ⟨S50000x256, .f32⟩
  | .hbm, ⟨104, _⟩ => ⟨S800000x1, .i32⟩
  | .hbm, ⟨105, _⟩ => ⟨S50000x256, .f32⟩
  | .hbm, ⟨106, _⟩ => ⟨S1x256, .f32⟩
  | .hbm, ⟨107, _⟩ => ⟨S1x128, .f32⟩
  | .hbm, ⟨108, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S1x256, .f32⟩
  | .local _ .vmem, ⟨15, _⟩ => ⟨S128x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S256x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v9 : Ref sig .tc := ⟨.hbm, 72, rfl⟩
abbrev main_cst_0 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v15 : Ref sig .tc := ⟨.hbm, 101, rfl⟩
abbrev main_cst_1 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x128 : S_.BroadcastsInDim S50000x128 (![] : Fin 0 → Fin S50000x128.rank)
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  shapeCasts_S128_S1x128 : S128.ShapeCasts S1x128
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x256_S2000x256_1_0_0_1_n_n_wf : DotDims.WF S2000x128 S128x256 S2000x256 [1] [0] [0] [1] [] []
  scatter_S50000x128_S800000x1_S800000x128_1_0_0_1_wf : ScatterDims.WF S50000x128 S800000x1 S800000x128 [1] [0] [0] 1
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v18) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000x256 : Shape := ⟨2, ![100000, 256]⟩
abbrev S1x256 : Shape := ⟨2, ![1, 256]⟩
abbrev S50000x256 : Shape := ⟨2, ![50000, 256]⟩
abbrev S800000x256 : Shape := ⟨2, ![800000, 256]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S128x256, .f32⟩
  | .hbm, ⟨8, _⟩ => ⟨S256, .f32⟩
  | .hbm, ⟨9, _⟩ => ⟨S128x256, .f32⟩
  | .hbm, ⟨10, _⟩ => ⟨S128x256, .f32⟩
  | .hbm, ⟨11, _⟩ => ⟨S256, .f32⟩
  | .hbm, ⟨12, _⟩ => ⟨S128x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256x128, .f32⟩
  | .hbm, ⟨17, _⟩ => ⟨S128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x1, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S100000x128, .f32⟩
  | .hbm, ⟨32, _⟩ => ⟨S800000x1, .i32⟩
  | .hbm, ⟨33, _⟩ => ⟨S100000x128, .f32⟩
  | .hbm, ⟨34, _⟩ => ⟨S100000x256, .f32⟩
  | .hbm, ⟨35, _⟩ => ⟨S1x256, .f32⟩
  | .hbm, ⟨36, _⟩ => ⟨S100000x256, .f32⟩
  | .hbm, ⟨37, _⟩ => ⟨S100000x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000x256, .f32⟩
  | .hbm, ⟨42, _⟩ => ⟨S100000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x256, .f32⟩
  | .hbm, ⟨74, _⟩ => ⟨S_, .f32⟩
  | .hbm, ⟨75, _⟩ => ⟨S50000x256, .f32⟩
  | .hbm, ⟨76, _⟩ => ⟨S800000x1, .i32⟩
  | .hbm, ⟨77, _⟩ => ⟨S50000x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000x256, .f32⟩
  | .hbm, ⟨86, _⟩ => ⟨S50000x256, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call0_cst : Ref sig .tc := ⟨.hbm, 40, rfl⟩
abbrev main_call0_v0 : Ref sig .tc := ⟨.hbm, 41, rfl⟩
abbrev main_v19 : Ref sig .tc := ⟨.hbm, 42, rfl⟩
abbrev main_c_1 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_cst : Ref sig .tc := ⟨.hbm, 62, rfl⟩
abbrev main_call1_v0 : Ref sig .tc := ⟨.hbm, 63, rfl⟩
abbrev main_v36 : Ref sig .tc := ⟨.hbm, 64, rfl⟩
abbrev main_c_4 : Ref sig .tc := ⟨.hbm, 65, rfl⟩
abbrev main_v37 : Ref sig .tc := ⟨.hbm, 66, rfl⟩
abbrev main_v38 : Ref sig .tc := ⟨.hbm, 67, rfl⟩
abbrev main_c_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_6 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call2_cst : Ref sig .tc := ⟨.hbm, 84, rfl⟩
abbrev main_call2_v0 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S50000x128 : S_.BroadcastsInDim S50000x128 (![] : Fin 0 → Fin S50000x128.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x256_S100000x256_1_0_0_1_n_n_wf : DotDims.WF S100000x128 S128x256 S100000x256 [1] [0] [0] [1] [] []
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, index by index, over the extended reals.

  One graph-convolution layer sends the aggregated messages `a` (one row per destination node), the
  destination nodes' own features `x`, two weight matrices and a bias to
      out[r, c] = max (Σ_k a[r, k] · wr[k, c] + Σ_k x[r, k] · wt[k, c] + b[c]) 0,
  and the closing linear map sends hidden features `h` to  Σ_k h[r, k] · w[k, c] + b[c].
  The sums range over the literal contraction extent; nothing here mentions a program.
-/
import Idealize.ShloMosaic.Lib.ValueIdx
import Idealize.ShloMosaic.PureOps.Ideal.Laws

noncomputable section

namespace Cert.GraphConv

open Idealize.ShloMosaic Idealize.ShloMosaic.ValueIdx

/-- Row `r`, column `c` of a layer before the rectifier: messages through `wr`, own features through `wt`,
    then the bias. -/
def affine {N K H : Nat} (a x : (⟨2, ![N, K]⟩ : Shape).Idx → EReal) (wr wt : (⟨2, ![K, H]⟩ : Shape).Idx → EReal)
    (b : (⟨1, ![H]⟩ : Shape).Idx → EReal) (r : Fin N) (c : Fin H) : EReal :=
  ((∑ k : Fin K, a (ix2 r k) * wr (ix2 k c)) + ∑ k : Fin K, x (ix2 r k) * wt (ix2 k c)) + b (ix1 c)

/-- One layer: the rectified affine map, as a whole array. -/
def layer {N K H : Nat} (a x : (⟨2, ![N, K]⟩ : Shape).Idx → EReal) (wr wt : (⟨2, ![K, H]⟩ : Shape).Idx → EReal)
    (b : (⟨1, ![H]⟩ : Shape).Idx → EReal) : (⟨2, ![N, H]⟩ : Shape).Idx → EReal :=
  fun i => max (affine a x wr wt b (i 0) (i 1)) 0

/-- The closing linear map, as a whole array. -/
def linear {N H O : Nat} (h : (⟨2, ![N, H]⟩ : Shape).Idx → EReal) (w : (⟨2, ![H, O]⟩ : Shape).Idx → EReal)
    (b : (⟨1, ![O]⟩ : Shape).Idx → EReal) : (⟨2, ![N, O]⟩ : Shape).Idx → EReal :=
  fun i => (∑ k : Fin H, h (ix2 (i 0) k) * w (ix2 k (i 1))) + b (ix1 (i 1))

/-- A bias kept as a one-row matrix, read back as a vector. -/
def rowOf {H : Nat} (b : (⟨2, ![1, H]⟩ : Shape).Idx → EReal) : (⟨1, ![H]⟩ : Shape).Idx → EReal :=
  fun j => b (ix2 (0 : Fin 1) (j 0))

theorem layer_apply {N K H : Nat} (a x : (⟨2, ![N, K]⟩ : Shape).Idx → EReal) (wr wt : (⟨2, ![K, H]⟩ : Shape).Idx → EReal)
    (b : (⟨1, ![H]⟩ : Shape).Idx → EReal) (r : Fin N) (c : Fin H) :
    layer a x wr wt b (ix2 r c) = max (((∑ k : Fin K, a (ix2 r k) * wr (ix2 k c)) + ∑ k : Fin K, x (ix2 r k) * wt (ix2 k c)) + b (ix1 c)) 0 := rfl

theorem linear_apply {N H O : Nat} (h : (⟨2, ![N, H]⟩ : Shape).Idx → EReal) (w : (⟨2, ![H, O]⟩ : Shape).Idx → EReal)
    (b : (⟨1, ![O]⟩ : Shape).Idx → EReal) (r : Fin N) (c : Fin O) :
    linear h w b (ix2 r c) = (∑ k : Fin H, h (ix2 r k) * w (ix2 k c)) + b (ix1 c) := rfl

/-- The reference adds the bias before the second product and the kernel after it: the same sum. -/
theorem add_bias_comm (p q b : EReal) : (p + b) + q = (p + q) + b := add_right_comm p b q

end Cert.GraphConv

end
-- ==== Proof.KernelHost.lean ====
/-
  The host arithmetic of the kernel's program around its three launches, as whole-array functions at the
  extended reals: the row index a gather uses (a negative index wrapped once), the test that this index lies
  inside the table, the gather that fills out-of-table rows with the not-a-number word, the plain gather,
  and the three scatter-add aggregations into a zero array.
-/
import proofs.«426257_j46815143526426_1_alg».proof.KernelIdeal
import proofs.«426257_j46815143526426_1_alg».proof.Proof.Gen.KernelIdeal
import proofs.«426257_j46815143526426_1_alg».proof.Proof.Spec

noncomputable section

namespace Cert.KernelIdeal.HostValue

open Cert.KernelIdeal Cert.KernelIdeal.Gen Idealize.ShloMosaic

/-- The column of row indices a gather reads: an index below zero has the table's height added once. -/
def rowIdx (s : IVec S800000 32) : IVec S800000x1 32 :=
  broadcastInDim S800000x1 ![0] Facts₀.bcast_S800000_S800000x1_0
    (select (cmpi .slt s (broadcastInDim S800000 ![] Facts₀.bcast_S_S800000 (constantI S_ 32 0#32)))
      (addi s (broadcastInDim S800000 ![] Facts₀.bcast_S_S800000 (constantI S_ 32 100000#32))) s)

/-- Per edge: does the wrapped row index lie in `[0, 99999]`? -/
def inTable (s : IVec S800000 32) : IVec S800000 1 :=
  Host.reduce IntOp.andi
    (andi (cmpi .sge (rowIdx s) (broadcastInDim S800000x1 ![] Facts₀.bcast_S_S800000x1 (constantI S_ 32 0#32)))
      (cmpi .sle (rowIdx s) (broadcastInDim S800000x1 ![0, 1] Facts₀.bcast_S1x1_S800000x1_0_1
        (broadcastInDim S1x1 ![1] Facts₀.bcast_S1_S1x1_1 (constantI S1 32 99999#32)))))
    (constantI S_ 1 1#1) Facts₀.reducesTo_S800000x1_S800000_d1 Facts₀.h_S_

/-- The rows of a 128-column table at the wrapped indices. -/
def rows128 (x : FVec Ideal S100000x128 .f32) (s : IVec S800000 32) : FVec Ideal S800000x128 .f32 :=
  Host.gather gather_S100000x128_S800000x1_S800000x128_1_0_n_n_0_1_1128 x (rowIdx s)

/-- The rows of a 256-column table at the wrapped indices. -/
def rows256 (x : FVec Ideal S100000x256 .f32) (s : IVec S800000 32) : FVec Ideal S800000x256 .f32 :=
  Host.gather gather_S100000x256_S800000x1_S800000x256_1_0_n_n_0_1_1256 x (rowIdx s)

/-- The same rows, a row whose index falls outside the table replaced by the not-a-number word. -/
def take128 (x : FVec Ideal S100000x128 .f32) (s : IVec S800000 32) : FVec Ideal S800000x128 .f32 :=
  select (broadcastInDim S800000x128 ![0] Facts₀.bcast_S800000_S800000x128_0 (inTable s)) (rows128 x s)
    (broadcastInDim S800000x128 ![] Facts₀.bcast_S_S800000x128 (constant S_ .f32 0x7FC00000#32))

def take256 (x : FVec Ideal S100000x256 .f32) (s : IVec S800000 32) : FVec Ideal S800000x256 .f32 :=
  select (broadcastInDim S800000x256 ![0] Facts₀.bcast_S800000_S800000x256_0 (inTable s)) (rows256 x s)
    (broadcastInDim S800000x256 ![] Facts₀.bcast_S_S800000x256 (constant S_ .f32 0x7FC00000#32))

/-- Edge messages, each scaled by its edge's weight, summed into their destination rows (100000 rows of 128). -/
def aggW (rows : FVec Ideal S800000x128 .f32) (d : IVec S800000 32) (w : FVec Ideal S800000 .f32) : FVec Ideal S100000x128 .f32 :=
  Host.scatterAdd scatter_S100000x128_S800000x1_S800000x128_1_0_0_1
    (broadcastInDim S100000x128 ![] Facts₀.bcast_S_S100000x128 (constant S_ .f32 0x00000000#32))
    (broadcastInDim S800000x1 ![0] Facts₀.bcast_S800000_S800000x1_0 d)
    (mulf rows (broadcastInDim S800000x128 ![0, 1] Facts₀.bcast_S800000x1_S800000x128_0_1
      (broadcastInDim S800000x1 ![0] Facts₀.bcast_S800000_S800000x1_0 w)))

/-- Edge messages summed into their destination rows (50000 rows of 128). -/
def agg128 (rows : FVec Ideal S800000x128 .f32) (d : IVec S800000 32) : FVec Ideal S50000x128 .f32 :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 d) rows

/-- Edge messages summed into their destination rows (50000 rows of 256). -/
def agg256 (rows : FVec Ideal S800000x256 .f32) (d : IVec S800000 32) : FVec Ideal S50000x256 .f32 :=
  Host.scatterAdd scatter_S50000x256_S800000x1_S800000x256_1_0_0_1
    (broadcastInDim S50000x256 ![] Facts₀.bcast_S_S50000x256 (constant S_ .f32 0x00000000#32))
    (broadcastInDim S800000x1 ![0] Facts₀.bcast_S800000_S800000x1_0 d) rows

/-- Every entry of an index vector is a row of the 100000-row table: at least zero, below 100000. -/
def InTable (s : IVec S800000 32) : Prop :=
  ∀ e : S800000.Idx, IntOp.cmpi .sge (s e) 0#32 = 1#1 ∧ IntOp.cmpi .slt (s e) 100000#32 = 1#1

/-- A 256-entry bias laid out as one row. -/
def biasRow256 (b : FVec Ideal S256 .f32) : FVec Ideal S1x256 .f32 := shapeCast S1x256 b Facts₀.shapeCasts_S256_S1x256

/-- A 128-entry bias laid out as one row. -/
def biasRow128 (b : FVec Ideal S128 .f32) : FVec Ideal S1x128 .f32 := shapeCast S1x128 b Facts₀.shapeCasts_S128_S1x128

end Cert.KernelIdeal.HostValue

end
-- ==== Proof.KernelStretch.lean ====
/-
  The host stretches of the kernel's program, one at a time, over ANY contents `W` of the buffers they start
  from: what each stretch leaves in the buffers it writes — the filling gather, the scatter-add aggregation, a
  bias laid out as a row — as the functions of `KernelHost.lean` of what it reads, and that it leaves every
  argument of the program (a buffer of index below 18) and every earlier launch's result as it found it.
-/
import proofs.«426257_j46815143526426_1_alg».proof.Proof.Gen.KernelIdeal.Launch
import proofs.«426257_j46815143526426_1_alg».proof.Proof.KernelHost
import Idealize.ShloMosaic.Lib.StableHlo.Run

set_option maxRecDepth 16384

noncomputable section

namespace Cert.KernelIdeal.StretchValue

open Cert.KernelIdeal Cert.KernelIdeal.Gen Cert.KernelIdeal.HostValue Idealize.ShloMosaic Idealize.ShloMosaic.TcCoe Idealize.SL.Sem Idealize.ShloMosaic.StableHlo

variable (W : Valuation τ sig (Elt Ideal))

/-! ## Contents at a value's type and at its buffer's own type

A called function's operations carry their contents from the value's type to the buffer's type and back; at a
literal buffer both are the identity. -/

/-- To the buffer's type and back: the identity. -/
theorem ofBuf_toBuf {Val : EltTy → Type} {T : BufTy} (x : TRef sig T) (v : T.Contents Val) :
    x.ofBuf (x.toBuf v) = v := by
  obtain ⟨r, rfl, _, _⟩ := x
  rfl

theorem toBuf_rows0 (h1 h2 h3) (X : (⟨S800000x128, .f32⟩ : BufTy).Contents (Elt Ideal)) :
    (TRef.of (T := ⟨S800000x128, .f32⟩) main_v0 h1 h2 h3).toBuf X = X := rfl
theorem toBuf_rows1 (h1 h2 h3) (X : (⟨S800000x128, .f32⟩ : BufTy).Contents (Elt Ideal)) :
    (TRef.of (T := ⟨S800000x128, .f32⟩) main_v9 h1 h2 h3).toBuf X = X := rfl
theorem toBuf_rows2 (h1 h2 h3) (X : (⟨S800000x256, .f32⟩ : BufTy).Contents (Elt Ideal)) :
    (TRef.of (T := ⟨S800000x256, .f32⟩) main_v15 h1 h2 h3).toBuf X = X := rfl
theorem ofBuf_features (h1 h2 h3) (X : (main_arg0 : Ref sig .tc).ty.Contents (Elt Ideal)) :
    (TRef.of (T := ⟨S100000x128, .f32⟩) main_arg0 h1 h2 h3).ofBuf X = X := rfl
theorem ofBuf_src0 (h1 h2 h3) (X : (main_arg2 : Ref sig .tc).ty.Contents (Elt Ideal)) :
    (TRef.of (T := ⟨S800000, .i32⟩) main_arg2 h1 h2 h3).ofBuf X = X := rfl
theorem ofBuf_src1 (h1 h2 h3) (X : (main_arg4 : Ref sig .tc).ty.Contents (Elt Ideal)) :
    (TRef.of (T := ⟨S800000, .i32⟩) main_arg4 h1 h2 h3).ofBuf X = X := rfl
theorem ofBuf_hidden (h1 h2 h3) (X : (main_v8 : Ref sig .tc).ty.Contents (Elt Ideal)) :
    (TRef.of (T := ⟨S100000x256, .f32⟩) main_v8 h1 h2 h3).ofBuf X = X := rfl

/-! ## Before the first launch -/

/-- The first stretch gathers the measurement features along the first edge set's sources. -/
theorem s0_rows :
    StableHlo.after (hostOps0 (F := Ideal)) W (Proc.devRef .tc main_v0) = take128 (W (Proc.devRef .tc main_arg0)) (W (Proc.devRef .tc main_arg2)) := by
  after_results_simp
  simp only [ofBuf_toBuf, toBuf_rows0, toBuf_rows1, toBuf_rows2, ofBuf_features, ofBuf_src0, ofBuf_src1, ofBuf_hidden]
  rfl
theorem s0_keeps (r : Ref sig .tc) (hr : r.idx.val < 18) :
    StableHlo.after (hostOps0 (F := Ideal)) W (Proc.devRef .tc r) = W (Proc.devRef .tc r) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hr (by decide))))

/-- The second stretch weights the gathered rows, sums them into their destinations, and lays the bias out. -/
theorem s0_1_agg :
    StableHlo.after (hostOps0_1 (F := Ideal)) W (Proc.devRef .tc main_v6) = aggW (W (Proc.devRef .tc main_v0)) (W (Proc.devRef .tc main_arg3)) (W (Proc.devRef .tc main_arg6)) := by
  after_results_simp <;> rfl
theorem s0_1_bias :
    StableHlo.after (hostOps0_1 (F := Ideal)) W (Proc.devRef .tc main_v7) = biasRow256 (W (Proc.devRef .tc main_arg8)) := by
  after_results_simp <;> rfl
theorem s0_1_keeps (r : Ref sig .tc) (hr : r.idx.val < 18) :
    StableHlo.after (hostOps0_1 (F := Ideal)) W (Proc.devRef .tc r) = W (Proc.devRef .tc r) :=
  StableHlo.after_of_forall_not_mem _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hr (by decide))))
theorem s0_1_keeps_rows :
    StableHlo.after (hostOps0_1 (F := Ideal)) W (Proc.devRef .tc main_v0) = W (Proc.devRef .tc main_v0) :=
  StableHlo.after_of_forall_not_mem (b := Proc.devRef .tc main_v0) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Between the first and the second launch -/

/-- The gather of the measurement features along the second edge set's sources. -/
theorem s1_rows :
    StableHlo.after (hostOps1 (F := Ideal)) W (Proc.devRef .tc main_v9) = take128 (W (Proc.devRef .tc main_arg0)) (W (Proc.devRef .tc main_arg4)) := by
  after_results_simp
  simp only [ofBuf_toBuf, toBuf_rows0, toBuf_rows1, toBuf_rows2, ofBuf_features, ofBuf_src0, ofBuf_src1, ofBuf_hidden]
  rfl
theorem s1_keeps (r : Ref sig .tc) (hr : r.idx.val < 18) :
    StableHlo.after (hostOps1 (F := Ideal)) W (Proc.devRef .tc r) = W (Proc.devRef .tc r) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hr (by decide))))
theorem s1_keeps_out0 :
    StableHlo.after (hostOps1 (F := Ideal)) W (Proc.devRef .tc main_v8) = W (Proc.devRef .tc main_v8) :=
  StableHlo.after_of_forall_not_mem (b := Proc.devRef .tc main_v8) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s1_1_agg :
    StableHlo.after (hostOps1_1 (F := Ideal)) W (Proc.devRef .tc main_v12) = agg128 (W (Proc.devRef .tc main_v9)) (W (Proc.devRef .tc main_arg5)) := by
  after_results_simp <;> rfl
theorem s1_1_bias :
    StableHlo.after (hostOps1_1 (F := Ideal)) W (Proc.devRef .tc main_v13) = biasRow256 (W (Proc.devRef .tc main_arg11)) := by
  after_results_simp <;> rfl
theorem s1_1_keeps (r : Ref sig .tc) (hr : r.idx.val < 18) :
    StableHlo.after (hostOps1_1 (F := Ideal)) W (Proc.devRef .tc r) = W (Proc.devRef .tc r) :=
  StableHlo.after_of_forall_not_mem _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hr (by decide))))
theorem s1_1_keeps_out0 :
    StableHlo.after (hostOps1_1 (F := Ideal)) W (Proc.devRef .tc main_v8) = W (Proc.devRef .tc main_v8) :=
  StableHlo.after_of_forall_not_mem (b := Proc.devRef .tc main_v8) _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Between the second and the third launch -/

/-- The gather of the first layer's output along the second edge set's sources. -/
theorem s2_rows :
    StableHlo.after (hostOps2 (F := Ideal)) W (Proc.devRef .tc main_v15) = take256 (W (Proc.devRef .tc main_v8)) (W (Proc.devRef .tc main_arg4)) := by
  after_results_simp
  simp only [ofBuf_toBuf, toBuf_rows0, toBuf_rows1, toBuf_rows2, ofBuf_features, ofBuf_src0, ofBuf_src1, ofBuf_hidden]
  rfl
theorem s2_keeps (r : Ref sig .tc) (hr : r.idx.val < 18) :
    StableHlo.after (hostOps2 (F := Ideal)) W (Proc.devRef .tc r) = W (Proc.devRef .tc r) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hr (by decide))))
theorem s2_keeps_out1 :
    StableHlo.after (hostOps2 (F := Ideal)) W (Proc.devRef .tc main_v14) = W (Proc.devRef .tc main_v14) :=
  StableHlo.after_of_forall_not_mem (b := Proc.devRef .tc main_v14) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_1_agg :
    StableHlo.after (hostOps2_1 (F := Ideal)) W (Proc.devRef .tc main_v18) = agg256 (W (Proc.devRef .tc main_v15)) (W (Proc.devRef .tc main_arg5)) := by
  after_results_simp <;> rfl
theorem s2_1_bias :
    StableHlo.after (hostOps2_1 (F := Ideal)) W (Proc.devRef .tc main_v19) = biasRow256 (W (Proc.devRef .tc main_arg14)) := by
  after_results_simp <;> rfl
theorem s2_1_bias_out :
    StableHlo.after (hostOps2_1 (F := Ideal)) W (Proc.devRef .tc main_v20) = biasRow128 (W (Proc.devRef .tc main_arg17)) := by
  after_results_simp <;> rfl
theorem s2_1_keeps (r : Ref sig .tc) (hr : r.idx.val < 18) :
    StableHlo.after (hostOps2_1 (F := Ideal)) W (Proc.devRef .tc r) = W (Proc.devRef .tc r) :=
  StableHlo.after_of_forall_not_mem _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hr (by decide))))
theorem s2_1_keeps_out1 :
    StableHlo.after (hostOps2_1 (F := Ideal)) W (Proc.devRef .tc main_v14) = W (Proc.devRef .tc main_v14) :=
  StableHlo.after_of_forall_not_mem (b := Proc.devRef .tc main_v14) _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.StretchValue

end
-- ==== Proof.Region0.lean ====
/-
  What the first launch leaves in its output array: one graph-convolution layer of the arrays it was
  entered with, row block by row block.

  Grid point `t` stages rows 2000 t … 2000 t + 1999 of the aggregated messages and of the nodes' own
  features, the whole of the two weight matrices and of the bias row, and writes back rows
  2000 t … 2000 t + 1999 of the output. One entry of what it stores is the rectified sum of two
  128-term products and the bias; read through the staged rows, that is the layer's entry at row
  2000 t + p. Row r of the output lies in the block of point r / 2000, so the 50 blocks fill the array.
-/
import proofs.«426257_j46815143526426_1_alg».proof.Proof.Gen.KernelIdeal.Frame
import proofs.«426257_j46815143526426_1_alg».proof.Proof.Spec
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The body's arithmetic at one entry of a block -/

/-- The block product's record: a row of the left operand is read along the contracted axis. -/
theorem lhs_blockDot_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_blockDot_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_blockDot_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_blockDot_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block product into a zero accumulator, at row `p` and column `q`: the sum over the 128 shared
    coordinates of the left operand's row `p` times the right operand's column `q`. -/
theorem blockDot_apply {φ₁ φ₂ : FTy} (lhs : FVec Ideal S2000x128 φ₁) (rhs : FVec Ideal S128x256 φ₂) (p : Fin 2000) (q : Fin 256) :
    FloatOps.matmul dot_S2000x128_S128x256_S2000x256_1_0_0_1_n_n none lhs rhs (constant S2000x256 .f32 0x00000000#32) (ix2 p q)
      = ∑ k : Fin 128, lhs (ix2 p k) * rhs (ix2 k q) := by
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]

/-- The bias row spread over the 2000 rows of a block reads the row's entry of that column. -/
theorem biasRows_apply (x3 : Vec Ideal S1x256 .f32) (p : Fin 2000) (q : Fin 256) :
    broadcastTo S2000x256 (shapeCast S1x256 x3 shapeCasts_S1x256_S1x256) broadcasts_S1x256_S2000x256 (ix2 p q) = x3 (ix2 (0 : Fin 1) q) := by
  rw [shapeCast_self]
  refine broadcastTo_apply x3 _ (ix2 p q) (ix2 (0 : Fin 1) q) fun a => ?_
  match a with
  | ⟨0, _⟩ => rfl
  | ⟨1, _⟩ => rfl

/-- One entry of what a grid point stores: the rectified sum of the two block products and the bias. -/
theorem payload_apply (x0 x1 : Vec Ideal S2000x128 .f32) (x2 x4 : Vec Ideal S128x256 .f32) (x3 : Vec Ideal S1x256 .f32)
    (p : Fin 2000) (q : Fin 256) :
    k0_pay1 (F := Ideal) x0 x1 x2 x4 x3 (ix2 p q)
      = max (((∑ k : Fin 128, x0 (ix2 p k) * x2 (ix2 k q)) + ∑ k : Fin 128, x1 (ix2 p k) * x4 (ix2 k q)) + x3 (ix2 (0 : Fin 1) q)) 0 := by
  have h1 : FloatOps.matmul (F := Ideal) dot_S2000x128_S128x256_S2000x256_1_0_0_1_n_n none
        (truncf .bf16 (shapeCast S2000x128 x0 shapeCasts_S2000x128_S2000x128) bitsLt_bf16_f32) (truncf .bf16 x2 bitsLt_bf16_f32)
        (constant S2000x256 .f32 0x00000000#32) (ix2 p q) = ∑ k : Fin 128, x0 (ix2 p k) * x2 (ix2 k q) := by
    refine (blockDot_apply _ _ p q).trans (Finset.sum_congr rfl fun k _ => ?_)
    rw [truncf_apply, truncf_apply, shapeCast_self]
  have h2 : FloatOps.matmul (F := Ideal) dot_S2000x128_S128x256_S2000x256_1_0_0_1_n_n none
        (truncf .bf16 x1 bitsLt_bf16_f32) (truncf .bf16 x4 bitsLt_bf16_f32)
        (constant S2000x256 .f32 0x00000000#32) (ix2 p q) = ∑ k : Fin 128, x1 (ix2 p k) * x4 (ix2 k q) := by
    refine (blockDot_apply _ _ p q).trans (Finset.sum_congr rfl fun k _ => ?_)
    rw [truncf_apply, truncf_apply]
  have h3 := biasRows_apply x3 p q
  have h4 : (Scalar.ofBits .f32 0x00000000#32 : Ideal .f32) = 0 := Ideal.ofBits_zero_f32
  unfold k0_pay1
  exact congrArg₂ max (congrArg₂ (· + ·) (congrArg₂ (· + ·) h1 h2) h3) h4

/-! ## Which rows a grid point stages -/

theorem zero_offsets : (![0, 0] : Fin 2 → Nat) = fun _ => 0 := funext fun a => by fin_cases a <;> rfl

/-- Point `t` stages row block `t` of the two row-blocked inputs and of the output, and the whole of
    the two weight matrices and of the bias row. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the messages' block at point `t` is row `2000 t + p` of the aggregated messages. -/
theorem messagesBlock_apply (c : Dev nD) (t : Fin cfg0.N) (p : Fin 2000) (k : Fin 128) (r : Fin 100000)
    (hr : r.val = t.val * 2000 + p.val) :
    (iblk0 (F := Ideal) V c 0 t : Vec Ideal S2000x128 .f32) (ix2 p k) = V c main_v6 (ix2 r k) := by
  obtain ⟨e0, e1, -⟩ := index_facts t
  unfold iblk0
  rw [View.read_apply]
  show V c main_v6 _ = V c main_v6 _
  refine congrArg (V c main_v6) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row `p` of the features' block at point `t` is row `2000 t + p` of the nodes' own features. -/
theorem featuresBlock_apply (c : Dev nD) (t : Fin cfg0.N) (p : Fin 2000) (k : Fin 128) (r : Fin 100000)
    (hr : r.val = t.val * 2000 + p.val) :
    (iblk0 (F := Ideal) V c 1 t : Vec Ideal S2000x128 .f32) (ix2 p k) = V c main_arg0 (ix2 r k) := by
  obtain ⟨-, -, e0, e1, -⟩ := index_facts t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- Every point stages the whole of the messages' weight matrix. -/
theorem relWeights_apply (c : Dev nD) (t : Fin cfg0.N) (k : Fin 128) (q : Fin 256) :
    (iblk0 (F := Ideal) V c 2 t : Vec Ideal S128x256 .f32) (ix2 k q) = V c main_arg7 (ix2 k q) := by
  obtain ⟨-, -, -, -, e0, e1, -⟩ := index_facts t
  unfold iblk0
  rw [View.read_apply]
  show V c main_arg7 _ = V c main_arg7 _
  refine congrArg (V c main_arg7) (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- Every point stages the whole bias row. -/
theorem biasRow_apply (c : Dev nD) (t : Fin cfg0.N) (q : Fin 256) :
    (iblk0 (F := Ideal) V c 3 t : Vec Ideal S1x256 .f32) (ix2 (0 : Fin 1) q) = V c main_v7 (ix2 (0 : Fin 1) q) := by
  obtain ⟨-, -, -, -, -, -, e0, e1, -⟩ := index_facts t
  unfold iblk0
  rw [View.read_apply]
  show V c main_v7 _ = V c main_v7 _
  refine congrArg (V c main_v7) (funext fun a => Fin.ext ?_)
  match a with
  | ⟨0, _⟩ => show win0_3.index t (0 : Fin 2) * 1 + 1 * (0 : Fin 1).val = (0 : Fin 1).val; rw [e0]; rfl
  | ⟨1, _⟩ => show win0_3.index t (1 : Fin 2) * 256 + 1 * q.val = q.val; rw [e1]; omega

/-- Every point stages the whole of the own features' weight matrix. -/
theorem rootWeights_apply (c : Dev nD) (t : Fin cfg0.N) (k : Fin 128) (q : Fin 256) :
    (iblk0 (F := Ideal) V c 4 t : Vec Ideal S128x256 .f32) (ix2 k q) = V c main_arg9 (ix2 k q) := by
  obtain ⟨-, -, -, -, -, -, -, -, e0, e1, -⟩ := index_facts t
  unfold iblk0
  rw [View.read_apply]
  show V c main_arg9 _ = V c main_arg9 _
  refine congrArg (V c main_arg9) (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-! ## What a point writes back, and the whole array -/

/-- One entry of a point's store is the layer's entry at the row that point's block places it at, once
    the staged blocks are known to be the rows and the whole matrices they were fetched from. -/
theorem point_layer (A X : Vec Ideal S100000x128 .f32) (Wr Wt : Vec Ideal S128x256 .f32) (B : Vec Ideal S1x256 .f32)
    (x0 x1 : Vec Ideal S2000x128 .f32) (x2 x4 : Vec Ideal S128x256 .f32) (x3 : Vec Ideal S1x256 .f32)
    (p : Fin 2000) (q : Fin 256) (r : Fin 100000)
    (h0 : ∀ k : Fin 128, x0 (ix2 p k) = A (ix2 r k)) (h1 : ∀ k : Fin 128, x1 (ix2 p k) = X (ix2 r k))
    (h2 : ∀ k : Fin 128, x2 (ix2 k q) = Wr (ix2 k q)) (h4 : ∀ k : Fin 128, x4 (ix2 k q) = Wt (ix2 k q))
    (h3 : x3 (ix2 (0 : Fin 1) q) = B (ix2 (0 : Fin 1) q)) :
    k0_pay1 (F := Ideal) x0 x1 x2 x4 x3 (ix2 p q) = GraphConv.layer A X Wr Wt (GraphConv.rowOf B) (ix2 r q) := by
  refine (payload_apply x0 x1 x2 x4 x3 p q).trans ?_
  refine (congrArg₂ max (congrArg₂ (· + ·) (congrArg₂ (· + ·) (Finset.sum_congr rfl fun k _ => ?_)
    (Finset.sum_congr rfl fun k _ => ?_)) h3) rfl).trans (GraphConv.layer_apply A X Wr Wt (GraphConv.rowOf B) r q).symm
  · rw [h0 k, h2 k]
  · rw [h1 k, h4 k]

/-- What point `t` writes back is block `t` of the layer of the arrays the launch was entered with. -/
theorem flushed_eq (c : Dev nD) (t : Fin cfg0.N) :
    (dat0 (F := Ideal) V c).flushed 5 t = ((cfg0.win 5).blk t).view.read (Elt Ideal)
      (GraphConv.layer (V c main_v6) (V c main_arg0) (V c main_arg7) (V c main_arg9) (GraphConv.rowOf (V c main_v7))) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x256) zero_offsets,
    View.ld_unit_zero (S := S1x256) zero_offsets]
  funext j
  obtain ⟨p, q, rfl⟩ : ∃ (p : Fin 2000) (q : Fin 256), j = ix2 p q := ⟨j 0, j 1, eq_ix2 j⟩
  have ht : t.val < 50 := lt_of_lt_of_eq t.isLt N_0
  obtain ⟨r, hr⟩ : ∃ r : Fin 100000, r.val = t.val * 2000 + p.val := ⟨⟨t.val * 2000 + p.val, by have := p.isLt; omega⟩, rfl⟩
  obtain ⟨-, -, -, -, -, -, -, -, -, -, e0, e1⟩ := index_facts t
  have hemb : ((cfg0.win 5).blk t).view.emb (ix2 p q) = ix2 r q := funext fun a => Fin.ext (by
    match a with
    | ⟨0, _⟩ => show win0_5.index t (0 : Fin 2) * 2000 + 1 * p.val = r.val; rw [e0, hr]; omega
    | ⟨1, _⟩ => show win0_5.index t (1 : Fin 2) * 256 + 1 * q.val = q.val; rw [e1]; omega)
  show k0_pay1 (F := Ideal) (iblk0 V c 0 t) (iblk0 V c 1 t) (iblk0 V c 2 t) (iblk0 V c 4 t) (iblk0 V c 3 t) (ix2 p q)
    = GraphConv.layer (V c main_v6) (V c main_arg0) (V c main_arg7) (V c main_arg9) (GraphConv.rowOf (V c main_v7))
        (((cfg0.win 5).blk t).view.emb (ix2 p q))
  rw [hemb]
  exact point_layer (V c main_v6) (V c main_arg0) (V c main_arg7) (V c main_arg9) (V c main_v7)
    (iblk0 V c 0 t) (iblk0 V c 1 t) (iblk0 V c 2 t) (iblk0 V c 4 t) (iblk0 V c 3 t) p q r
    (fun k => messagesBlock_apply V c t p k r hr) (fun k => featuresBlock_apply V c t p k r hr)
    (fun k => relWeights_apply V c t k q) (fun k => rootWeights_apply V c t k q) (biasRow_apply V c t q)

/-- Row `r` of the output lies in the block of point `r / 2000`. -/
theorem covered (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := index_facts t
  refine ⟨t, flush0_5 t, ?_⟩
  show i ∈ ((View.whole main_v8).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- After its last grid point the first launch's output array is the layer of its five input arrays. -/
theorem region0_value (c : Dev nD) :
    (dat0 (F := Ideal) V c).arrAt 5 cfg0.N =
      GraphConv.layer (V c main_v6) (V c main_arg0) (V c main_arg7) (V c main_arg9) (GraphConv.rowOf (V c main_v7)) :=
  (dat0 (F := Ideal) V c).arrAt_eq_of_cover 5 _ (fun t _ => flushed_eq V c t) covered

end Cert.KernelIdeal.RegionValue

end
-- ==== Proof.Region1.lean ====
/-
  What the second launch leaves in its output array: one graph-convolution layer of the arrays it was
  entered with, row block by row block.

  The second launch has the first one's shape at half the rows: 25 grid points, point `t` staging rows
  2000 t … 2000 t + 1999 of the aggregated messages and of the nodes' own features, the whole of the two
  weight matrices and of the bias row, and writing back the same rows of the output. Its stored entry is
  the same rectified sum of two 128-term products and the bias, so the first launch's reading of one
  entry serves here unchanged; what is new is which rows the 25 blocks are.
-/
import proofs.«426257_j46815143526426_1_alg».proof.Proof.Gen.KernelIdeal.Frame
import proofs.«426257_j46815143526426_1_alg».proof.Proof.Spec
import proofs.«426257_j46815143526426_1_alg».proof.Proof.Region0

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The body's arithmetic at one entry of a block -/

/-- The second launch's body is the first one's, operation for operation: one entry of what a grid point
    stores is the rectified sum of the two block products and the bias. -/
theorem payload1_apply (x0 x1 : Vec Ideal S2000x128 .f32) (x2 x4 : Vec Ideal S128x256 .f32) (x3 : Vec Ideal S1x256 .f32)
    (p : Fin 2000) (q : Fin 256) :
    k1_pay1 (F := Ideal) x0 x1 x2 x4 x3 (ix2 p q)
      = max (((∑ k : Fin 128, x0 (ix2 p k) * x2 (ix2 k q)) + ∑ k : Fin 128, x1 (ix2 p k) * x4 (ix2 k q)) + x3 (ix2 (0 : Fin 1) q)) 0 :=
  payload_apply x0 x1 x2 x4 x3 p q

/-! ## Which rows a grid point stages -/

/-- Point `t` of the 25 stages row block `t` of the two row-blocked inputs and of the output, and the
    whole of the two weight matrices and of the bias row. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the messages' block at point `t` is row `2000 t + p` of the aggregated messages. -/
theorem messagesBlock1_apply (c : Dev nD) (t : Fin cfg1.N) (p : Fin 2000) (k : Fin 128) (r : Fin 50000)
    (hr : r.val = t.val * 2000 + p.val) :
    (iblk1 (F := Ideal) V c 0 t : Vec Ideal S2000x128 .f32) (ix2 p k) = V c main_v12 (ix2 r k) := by
  obtain ⟨e0, e1, -⟩ := index_facts1 t
  unfold iblk1
  rw [View.read_apply]
  show V c main_v12 _ = V c main_v12 _
  refine congrArg (V c main_v12) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row `p` of the features' block at point `t` is row `2000 t + p` of the nodes' own features. -/
theorem featuresBlock1_apply (c : Dev nD) (t : Fin cfg1.N) (p : Fin 2000) (k : Fin 128) (r : Fin 50000)
    (hr : r.val = t.val * 2000 + p.val) :
    (iblk1 (F := Ideal) V c 1 t : Vec Ideal S2000x128 .f32) (ix2 p k) = V c main_arg1 (ix2 r k) := by
  obtain ⟨-, -, e0, e1, -⟩ := index_facts1 t
  unfold iblk1
  rw [View.read_apply]
  show V c main_arg1 _ = V c main_arg1 _
  refine congrArg (V c main_arg1) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- Every point stages the whole of the messages' weight matrix. -/
theorem relWeights1_apply (c : Dev nD) (t : Fin cfg1.N) (k : Fin 128) (q : Fin 256) :
    (iblk1 (F := Ideal) V c 2 t : Vec Ideal S128x256 .f32) (ix2 k q) = V c main_arg10 (ix2 k q) := by
  obtain ⟨-, -, -, -, e0, e1, -⟩ := index_facts1 t
  unfold iblk1
  rw [View.read_apply]
  show V c main_arg10 _ = V c main_arg10 _
  refine congrArg (V c main_arg10) (funext fun a => Fin.ext ?_)
  match a with
  | ⟨0, _⟩ => show win1_2.index t (0 : Fin 2) * 128 + 1 * k.val = k.val; rw [e0]; omega
  | ⟨1, _⟩ => show win1_2.index t (1 : Fin 2) * 256 + 1 * q.val = q.val; rw [e1]; omega

/-- Every point stages the whole bias row. -/
theorem biasRow1_apply (c : Dev nD) (t : Fin cfg1.N) (q : Fin 256) :
    (iblk1 (F := Ideal) V c 3 t : Vec Ideal S1x256 .f32) (ix2 (0 : Fin 1) q) = V c main_v13 (ix2 (0 : Fin 1) q) := by
  obtain ⟨-, -, -, -, -, -, e0, e1, -⟩ := index_facts1 t
  unfold iblk1
  rw [View.read_apply]
  show V c main_v13 _ = V c main_v13 _
  refine congrArg (V c main_v13) (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 256 + 1 * q.val = q.val; rw [e1]; omega

/-- Every point stages the whole of the own features' weight matrix. -/
theorem rootWeights1_apply (c : Dev nD) (t : Fin cfg1.N) (k : Fin 128) (q : Fin 256) :
    (iblk1 (F := Ideal) V c 4 t : Vec Ideal S128x256 .f32) (ix2 k q) = V c main_arg12 (ix2 k q) := by
  obtain ⟨-, -, -, -, -, -, -, -, e0, e1, -⟩ := index_facts1 t
  unfold iblk1
  rw [View.read_apply]
  show V c main_arg12 _ = V c main_arg12 _
  refine congrArg (V c main_arg12) (funext fun a => Fin.ext ?_)
  match a with
  | ⟨0, _⟩ => show win1_4.index t (0 : Fin 2) * 128 + 1 * k.val = k.val; rw [e0]; omega
  | ⟨1, _⟩ => show win1_4.index t (1 : Fin 2) * 256 + 1 * q.val = q.val; rw [e1]; omega

/-! ## What a point writes back, and the whole array -/

/-- One entry of a point's store is the layer's entry at the row that point's block places it at, once
    the staged blocks are known to be the rows and the whole matrices they were fetched from: the
    50000-row form. -/
theorem point_layer1 (A X : Vec Ideal S50000x128 .f32) (Wr Wt : Vec Ideal S128x256 .f32) (B : Vec Ideal S1x256 .f32)
    (x0 x1 : Vec Ideal S2000x128 .f32) (x2 x4 : Vec Ideal S128x256 .f32) (x3 : Vec Ideal S1x256 .f32)
    (p : Fin 2000) (q : Fin 256) (r : Fin 50000)
    (h0 : ∀ k : Fin 128, x0 (ix2 p k) = A (ix2 r k)) (h1 : ∀ k : Fin 128, x1 (ix2 p k) = X (ix2 r k))
    (h2 : ∀ k : Fin 128, x2 (ix2 k q) = Wr (ix2 k q)) (h4 : ∀ k : Fin 128, x4 (ix2 k q) = Wt (ix2 k q))
    (h3 : x3 (ix2 (0 : Fin 1) q) = B (ix2 (0 : Fin 1) q)) :
    k1_pay1 (F := Ideal) x0 x1 x2 x4 x3 (ix2 p q) = GraphConv.layer A X Wr Wt (GraphConv.rowOf B) (ix2 r q) := by
  refine (payload1_apply x0 x1 x2 x4 x3 p q).trans ?_
  refine (congrArg₂ max (congrArg₂ (· + ·) (congrArg₂ (· + ·) (Finset.sum_congr rfl fun k _ => ?_)
    (Finset.sum_congr rfl fun k _ => ?_)) h3) rfl).trans (GraphConv.layer_apply A X Wr Wt (GraphConv.rowOf B) r q).symm
  · rw [h0 k, h2 k]
  · rw [h1 k, h4 k]

/-- What point `t` writes back is block `t` of the layer of the arrays the launch was entered with. -/
theorem flushed1_eq (c : Dev nD) (t : Fin cfg1.N) :
    (dat1 (F := Ideal) V c).flushed 5 t = ((cfg1.win 5).blk t).view.read (Elt Ideal)
      (GraphConv.layer (V c main_v12) (V c main_arg1) (V c main_arg10) (V c main_arg12) (GraphConv.rowOf (V c main_v13))) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x256) zero_offsets,
    View.ld_unit_zero (S := S1x256) zero_offsets]
  funext j
  obtain ⟨p, q, rfl⟩ : ∃ (p : Fin 2000) (q : Fin 256), j = ix2 p q := ⟨j 0, j 1, eq_ix2 j⟩
  have ht : t.val < 25 := lt_of_lt_of_eq t.isLt N_1
  obtain ⟨r, hr⟩ : ∃ r : Fin 50000, r.val = t.val * 2000 + p.val := ⟨⟨t.val * 2000 + p.val, by have := p.isLt; omega⟩, rfl⟩
  obtain ⟨-, -, -, -, -, -, -, -, -, -, e0, e1⟩ := index_facts1 t
  have hemb : ((cfg1.win 5).blk t).view.emb (ix2 p q) = ix2 r q := funext fun a => Fin.ext (by
    match a with
    | ⟨0, _⟩ => show win1_5.index t (0 : Fin 2) * 2000 + 1 * p.val = r.val; rw [e0, hr]; omega
    | ⟨1, _⟩ => show win1_5.index t (1 : Fin 2) * 256 + 1 * q.val = q.val; rw [e1]; omega)
  show k1_pay1 (F := Ideal) (iblk1 V c 0 t) (iblk1 V c 1 t) (iblk1 V c 2 t) (iblk1 V c 4 t) (iblk1 V c 3 t) (ix2 p q)
    = GraphConv.layer (V c main_v12) (V c main_arg1) (V c main_arg10) (V c main_arg12) (GraphConv.rowOf (V c main_v13))
        (((cfg1.win 5).blk t).view.emb (ix2 p q))
  rw [hemb]
  exact point_layer1 (V c main_v12) (V c main_arg1) (V c main_arg10) (V c main_arg12) (V c main_v13)
    (iblk1 V c 0 t) (iblk1 V c 1 t) (iblk1 V c 2 t) (iblk1 V c 4 t) (iblk1 V c 3 t) p q r
    (fun k => messagesBlock1_apply V c t p k r hr) (fun k => featuresBlock1_apply V c t p k r hr)
    (fun k => relWeights1_apply V c t k q) (fun k => rootWeights1_apply V c t k q) (biasRow1_apply V c t q)

/-- Row `r` of the output lies in the block of point `r / 2000`. -/
theorem covered1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := index_facts1 t
  refine ⟨t, flush1_5 t, ?_⟩
  show i ∈ ((View.whole main_v14).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 256 ≤ (i 1).val ∧ (i 1).val < win1_5.index t (1 : Fin 2) * 256 + 256; rw [e1]; omega

/-- After its last grid point the second launch's output array is the layer of its five input arrays. -/
theorem region1_value (c : Dev nD) :
    (dat1 (F := Ideal) V c).arrAt 5 cfg1.N =
      GraphConv.layer (V c main_v12) (V c main_arg1) (V c main_arg10) (V c main_arg12) (GraphConv.rowOf (V c main_v13)) :=
  (dat1 (F := Ideal) V c).arrAt_eq_of_cover 5 _ (fun t _ => flushed1_eq V c t) covered1

end Cert.KernelIdeal.RegionValue

end
-- ==== Proof.Region2.lean ====
/-
  What the third launch leaves in its output array: a graph-convolution layer followed by the closing
  linear map, of the arrays it was entered with, row block by row block.
-/
import proofs.«426257_j46815143526426_1_alg».proof.Proof.Gen.KernelIdeal.Frame
import proofs.«426257_j46815143526426_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

namespace ConvLin

/-! ## The two contractions read at an index

Both products contract the left operand's columns against the right operand's rows; at an output index `(p, j)` the
operand indices at contraction coordinate `k` are `(p, k)` and `(k, j)`. -/

theorem lhs_hid_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_hid_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_hid_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_hid_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product of a row block with a square weight matrix, accumulated into zero, at `(p, j)`: the plain sum over the
    contraction coordinate. -/
theorem matmul_hid_apply {φ₁ φ₂ : FTy} (a : FVec Ideal S2000x256 φ₁) (w : FVec Ideal S256x256 φ₂) (p : Fin 2000) (j : Fin 256) :
    matmul dot_S2000x256_S256x256_S2000x256_1_0_0_1_n_n none a w (constant (F := Ideal) S2000x256 .f32 0x00000000#32) (ix2 p j)
      = ∑ k : Fin 256, a (ix2 p k) * w (ix2 k j) := by
  refine (Ideal.matmul_constant_zero_apply dot_S2000x256_S256x256_S2000x256_1_0_0_1_n_n none a w (ix2 p j)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p j) ((contrEquiv1 dot_S2000x256_S256x256_S2000x256_1_0_0_1_n_n 256 rfl rfl).symm k) = ix2 p k := funext fun a => Fin.ext (by
    match a with
    | ⟨0, _⟩ => exact lhs_hid_0 _ _
    | ⟨1, _⟩ => exact (lhs_hid_1 _ _).trans hk)
  have er : dot_S2000x256_S256x256_S2000x256_1_0_0_1_n_n.rhsIdx (ix2 p j) ((contrEquiv1 dot_S2000x256_S256x256_S2000x256_1_0_0_1_n_n 256 rfl rfl).symm k) = ix2 k j := funext fun a => Fin.ext (by
    match a with
    | ⟨0, _⟩ => exact (rhs_hid_0 _ _).trans hk
    | ⟨1, _⟩ => exact rhs_hid_1 _ _)
  rw [el, er]

theorem lhs_lin_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_lin_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_lin_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_lin_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The closing product of a row block of hidden features with the output weights, accumulated into zero, at `(p, q)`. -/
theorem matmul_lin_apply {φ₁ φ₂ : FTy} (a : FVec Ideal S2000x256 φ₁) (w : FVec Ideal S256x128 φ₂) (p : Fin 2000) (q : Fin 128) :
    matmul dot_S2000x256_S256x128_S2000x128_1_0_0_1_n_n none a w (constant (F := Ideal) S2000x128 .f32 0x00000000#32) (ix2 p q)
      = ∑ k : Fin 256, a (ix2 p k) * w (ix2 k q) := by
  refine (Ideal.matmul_constant_zero_apply dot_S2000x256_S256x128_S2000x128_1_0_0_1_n_n none a w (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_lin_0 _ _
    | ⟨1, _⟩ => exact (lhs_lin_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_lin_0 _ _).trans hk
    | ⟨1, _⟩ => exact rhs_lin_1 _ _)
  rw [el, er]

/-! ## The bias rows, broadcast down the block -/

/-- A one-row bias broadcast over 2000 rows reads its row's entry in every row. -/
theorem bias_hid_apply {α : Type} (b : S1x256.Idx → α) (p : Fin 2000) (j : Fin 256) :
    broadcastTo S2000x256 b broadcasts_S1x256_S2000x256 (ix2 p j) = b (ix2 (0 : Fin 1) j) :=
  broadcastTo_apply b broadcasts_S1x256_S2000x256 (ix2 p j) (ix2 (0 : Fin 1) j) fun a => by
    match a with
    | ⟨0, _⟩ => rfl
    | ⟨1, _⟩ => rfl

theorem bias_lin_apply {α : Type} (b : S1x128.Idx → α) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) fun a => by
    match a with
    | ⟨0, _⟩ => rfl
    | ⟨1, _⟩ => rfl

/-! ## The payload read at an index -/

/-- The rectified layer inside the payload at row `p` of the block and hidden column `j`: messages through the first
    weight matrix plus own features through the second, plus the bias row's entry, rectified. -/
theorem hidden_apply (x0 x1 : Vec Ideal S2000x256 .f32) (x2 x4 : Vec Ideal S256x256 .f32) (x3 : Vec Ideal S1x256 .f32)
    (p : Fin 2000) (j : Fin 256) :
    maximumf
        (addf
          (addf
            (matmul dot_S2000x256_S256x256_S2000x256_1_0_0_1_n_n none (truncf .bf16 x0 bitsLt_bf16_f32) (truncf .bf16 x2 bitsLt_bf16_f32)
              (constant (F := Ideal) S2000x256 .f32 0x00000000#32))
            (matmul dot_S2000x256_S256x256_S2000x256_1_0_0_1_n_n none (truncf .bf16 x1 bitsLt_bf16_f32) (truncf .bf16 x4 bitsLt_bf16_f32)
              (constant (F := Ideal) S2000x256 .f32 0x00000000#32)))
          (broadcastTo S2000x256 x3 broadcasts_S1x256_S2000x256))
        (broadcast S2000x256 (Scalar.ofBits (F := Ideal) .f32 0x00000000#32)) (ix2 p j)
      = max (((∑ k : Fin 256, x0 (ix2 p k) * x2 (ix2 k j)) + ∑ k : Fin 256, x1 (ix2 p k) * x4 (ix2 k j)) + x3 (ix2 (0 : Fin 1) j)) 0 := by
  refine (maximumf_apply _ _ (ix2 p j)).trans ?_
  refine congrArg₂ max ?_ Ideal.ofBits_zero_f32
  refine (addf_apply _ _ (ix2 p j)).trans ?_
  refine congrArg₂ (· + ·) ?_ (bias_hid_apply x3 p j)
  refine (addf_apply _ _ (ix2 p j)).trans ?_
  exact congrArg₂ (· + ·) (matmul_hid_apply _ _ p j) (matmul_hid_apply _ _ p j)

/-- THE PAYLOAD AT `(p, q)`: the closing linear map of the rectified layer of the loaded blocks. -/
theorem pay_apply (x0 x1 : Vec Ideal S2000x256 .f32) (x2 x4 : Vec Ideal S256x256 .f32) (x3 : Vec Ideal S1x256 .f32)
    (x5 : Vec Ideal S256x128 .f32) (x6 : Vec Ideal S1x128 .f32) (p : Fin 2000) (q : Fin 128) :
    k2_pay1 (F := Ideal) x0 x1 x2 x4 x3 x5 x6 (ix2 p q)
      = (∑ j : Fin 256,
            max (((∑ k : Fin 256, x0 (ix2 p k) * x2 (ix2 k j)) + ∑ k : Fin 256, x1 (ix2 p k) * x4 (ix2 k j)) + x3 (ix2 (0 : Fin 1) j)) 0
              * x5 (ix2 j q))
          + x6 (ix2 (0 : Fin 1) q) := by
  unfold k2_pay1
  simp only [shapeCast_self]
  refine (addf_apply _ _ (ix2 p q)).trans ?_
  refine congrArg₂ (· + ·) ?_ (bias_lin_apply x6 p q)
  refine (matmul_lin_apply _ _ p q).trans ?_
  refine Finset.sum_congr rfl fun j _ => ?_
  exact congrArg₂ (· * ·) (hidden_apply x0 x1 x2 x4 x3 p j) rfl

/-! ## What one grid point leaves in its output block -/

theorem zero_offsets : (![0, 0] : Fin 2 → Nat) = fun _ => 0 := funext fun a => by fin_cases a <;> rfl

/-- The body loads its seven staged blocks whole and stores the payload whole: the output block at `(p, q)` is the
    payload of the staged blocks there. -/
theorem out_apply (x0 x1 : Vec Ideal S2000x256 .f32) (x2 : Vec Ideal S256x256 .f32) (x3 : Vec Ideal S1x256 .f32)
    (x4 : Vec Ideal S256x256 .f32) (x5 : Vec Ideal S256x128 .f32) (x6 : Vec Ideal S1x128 .f32) (p : Fin 2000) (q : Fin 128) :
    out2_7 (F := Ideal) x0 x1 x2 x3 x4 x5 x6 (ix2 p q)
      = (∑ j : Fin 256,
            max (((∑ k : Fin 256, x0 (ix2 p k) * x2 (ix2 k j)) + ∑ k : Fin 256, x1 (ix2 p k) * x4 (ix2 k j)) + x3 (ix2 (0 : Fin 1) j)) 0
              * x5 (ix2 j q))
          + x6 (ix2 (0 : Fin 1) q) := by
  unfold out2_7
  rw [View.canon_unit_zero zero_offsets]
  simp only [View.ld_unit_zero (S := S2000x256) zero_offsets, View.ld_unit_zero (S := S256x256) zero_offsets,
    View.ld_unit_zero (S := S1x256) zero_offsets, View.ld_unit_zero (S := S256x128) zero_offsets,
    View.ld_unit_zero (S := S1x128) zero_offsets]
  exact pay_apply x0 x1 x2 x4 x3 x5 x6 p q

/-- ONE POINT AGAINST THE WHOLE ARRAYS. If the two row blocks are rows `r` of the message and feature arrays at block
    row `p`, and the five other staged blocks are the whole weight and bias arrays, the output block at `(p, q)` is the
    closing linear map of the layer at `(r, q)`. -/
theorem point_eq (A X : S50000x256.Idx → EReal) (Wr Wt : S256x256.Idx → EReal) (B1 : S1x256.Idx → EReal)
    (Wl : S256x128.Idx → EReal) (B2 : S1x128.Idx → EReal)
    (x0 x1 : Vec Ideal S2000x256 .f32) (x2 : Vec Ideal S256x256 .f32) (x3 : Vec Ideal S1x256 .f32)
    (x4 : Vec Ideal S256x256 .f32) (x5 : Vec Ideal S256x128 .f32) (x6 : Vec Ideal S1x128 .f32)
    (r : Fin 50000) (p : Fin 2000) (q : Fin 128)
    (h0 : ∀ k : Fin 256, x0 (ix2 p k) = A (ix2 r k)) (h1 : ∀ k : Fin 256, x1 (ix2 p k) = X (ix2 r k))
    (h2 : x2 = Wr) (h3 : x3 = B1) (h4 : x4 = Wt) (h5 : x5 = Wl) (h6 : x6 = B2) :
    out2_7 (F := Ideal) x0 x1 x2 x3 x4 x5 x6 (ix2 p q)
      = GraphConv.linear (GraphConv.layer A X Wr Wt (GraphConv.rowOf B1)) Wl (GraphConv.rowOf B2) (ix2 r q) := by
  subst h2 h3 h4 h5 h6
  rw [out_apply, GraphConv.linear_apply]
  refine congrArg₂ (· + ·) (Finset.sum_congr rfl fun j _ => ?_) rfl
  rw [GraphConv.layer_apply]
  simp only [h0, h1]
  rfl

/-! ## The staged blocks are parts of the whole arrays -/

/-- The windows' index maps over the 25 grid points: the two row-blocked inputs and the output are at block row `t`,
    block column 0; the weights and bias rows are always at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of the staged message block at point `t` is row `2000 t + p` of the message array. -/
theorem rows_msg (c : Dev nD) (t : Fin cfg2.N) (p : Fin 2000) (k : Fin 256) (r : Fin 50000) (hr : r.val = 2000 * t.val + p.val) :
    (iblk2 V c 0 t : Vec Ideal S2000x256 .f32) (ix2 p k) = (V c main_v18 : S50000x256.Idx → EReal) (ix2 r k) := by
  obtain ⟨e0, e1, -⟩ := index_facts t
  show V c main_v18 (((cfg2.win 0).blk t).view.emb (ix2 p k)) = V c main_v18 (ix2 r k)
  refine congrArg (V c main_v18) (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

/-- Row `p` of the staged feature block at point `t` is row `2000 t + p` of the feature array. -/
theorem rows_own (c : Dev nD) (t : Fin cfg2.N) (p : Fin 2000) (k : Fin 256) (r : Fin 50000) (hr : r.val = 2000 * t.val + p.val) :
    (iblk2 V c 1 t : Vec Ideal S2000x256 .f32) (ix2 p k) = (V c main_v14 : S50000x256.Idx → EReal) (ix2 r k) := by
  obtain ⟨-, -, e0, e1, -⟩ := index_facts t
  show V c main_v14 (((cfg2.win 1).blk t).view.emb (ix2 p k)) = V c main_v14 (ix2 r k)
  refine congrArg (V c main_v14) (funext fun a => Fin.ext ?_)
  match a with
  | ⟨0, _⟩ => show win2_1.index t (0 : Fin 2) * 2000 + 1 * p.val = r.val; omega
  | ⟨1, _⟩ => show win2_1.index t (1 : Fin 2) * 256 + 1 * k.val = k.val; omega

/-- The staged message weights are the whole weight array at every point. -/
theorem whole_wrel (c : Dev nD) (t : Fin cfg2.N) :
    (iblk2 V c 2 t : Vec Ideal S256x256 .f32) = (V c main_arg13 : S256x256.Idx → EReal) := by
  obtain ⟨-, -, -, -, e0, e1, -⟩ := index_facts t
  funext y
  show V c main_arg13 (((cfg2.win 2).blk t).view.emb y) = V c main_arg13 y
  refine congrArg (V c main_arg13) (funext fun a => Fin.ext ?_)
  match a with
  | ⟨0, _⟩ => show win2_2.index t (0 : Fin 2) * 256 + 1 * (y 0).val = (y 0).val; omega
  | ⟨1, _⟩ => show win2_2.index t (1 : Fin 2) * 256 + 1 * (y 1).val = (y 1).val; omega

/-- The staged first bias row is the whole bias row. -/
theorem whole_bias1 (c : Dev nD) (t : Fin cfg2.N) :
    (iblk2 V c 3 t : Vec Ideal S1x256 .f32) = (V c main_v19 : S1x256.Idx → EReal) := by
  obtain ⟨-, -, -, -, -, -, e0, e1, -⟩ := index_facts t
  funext y
  show V c main_v19 (((cfg2.win 3).blk t).view.emb y) = V c main_v19 y
  refine congrArg (V c main_v19) (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega

/-- The staged own-feature weights are the whole weight array. -/
theorem whole_wroot (c : Dev nD) (t : Fin cfg2.N) :
    (iblk2 V c 4 t : Vec Ideal S256x256 .f32) = (V c main_arg15 : S256x256.Idx → EReal) := by
  obtain ⟨-, -, -, -, -, -, -, -, e0, e1, -⟩ := index_facts t
  funext y
  show V c main_arg15 (((cfg2.win 4).blk t).view.emb y) = V c main_arg15 y
  refine congrArg (V c main_arg15) (funext fun a => Fin.ext ?_)
  match a with
  | ⟨0, _⟩ => show win2_4.index t (0 : Fin 2) * 256 + 1 * (y 0).val = (y 0).val; omega
  | ⟨1, _⟩ => show win2_4.index t (1 : Fin 2) * 256 + 1 * (y 1).val = (y 1).val; omega

/-- The staged output weights are the whole output weight array. -/
theorem whole_wlin (c : Dev nD) (t : Fin cfg2.N) :
    (iblk2 V c 5 t : Vec Ideal S256x128 .f32) = (V c main_arg16 : S256x128.Idx → EReal) := by
  obtain ⟨-, -, -, -, -, -, -, -, -, -, e0, e1, -⟩ := index_facts t
  funext y
  show V c main_arg16 (((cfg2.win 5).blk t).view.emb y) = V c main_arg16 y
  refine congrArg (V c main_arg16) (funext fun a => Fin.ext ?_)
  match a with
  | ⟨0, _⟩ => show win2_5.index t (0 : Fin 2) * 256 + 1 * (y 0).val = (y 0).val; omega
  | ⟨1, _⟩ => show win2_5.index t (1 : Fin 2) * 128 + 1 * (y 1).val = (y 1).val; omega

/-- The staged second bias row is the whole bias row. -/
theorem whole_bias2 (c : Dev nD) (t : Fin cfg2.N) :
    (iblk2 V c 6 t : Vec Ideal S1x128 .f32) = (V c main_v20 : S1x128.Idx → EReal) := by
  obtain ⟨-, -, -, -, -, -, -, -, -, -, -, -, e0, e1, -⟩ := index_facts t
  funext y
  show V c main_v20 (((cfg2.win 6).blk t).view.emb y) = V c main_v20 y
  refine congrArg (V c main_v20) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-! ## Every write-back is a block of one whole-array function, and the blocks tile the array -/

/-- WHAT POINT `t` WRITES BACK is block `t` of the closing linear map of the layer of the arrays the region was
    entered with. -/
theorem flushed_eq (c : Dev nD) (t : Fin cfg2.N) :
    (dat2 (F := Ideal) V c).flushed 7 t
      = ((cfg2.win 7).blk t).view.read (Elt Ideal)
          (GraphConv.linear (GraphConv.layer (V c main_v18) (V c main_v14) (V c main_arg13) (V c main_arg15) (GraphConv.rowOf (V c main_v19)))
            (V c main_arg16) (GraphConv.rowOf (V c main_v20))) := by
  show (cfg2.win 7).cut (grid2.coords t) ((dat2 V c).after 7 t) = _
  rw [after2_7]
  obtain ⟨-, -, -, -, -, -, -, -, -, -, -, -, -, -, e0, e1⟩ := index_facts t
  have ht : t.val < 25 := lt_of_lt_of_eq t.isLt N_2
  funext y
  obtain ⟨p, q, rfl⟩ : ∃ (p : Fin 2000) (q : Fin 128), y = ix2 p q := ⟨y 0, y 1, eq_ix2 y⟩
  have hp : p.val < 2000 := p.isLt
  have he : ((cfg2.win 7).blk t).view.emb (ix2 p q) = ix2 (⟨2000 * t.val + p.val, by omega⟩ : Fin 50000) q :=
    funext fun a => Fin.ext (by
      match a with
      | ⟨0, _⟩ => show win2_7.index t (0 : Fin 2) * 2000 + 1 * p.val = 2000 * t.val + p.val; omega
      | ⟨1, _⟩ => show win2_7.index t (1 : Fin 2) * 128 + 1 * q.val = q.val; omega)
  refine (point_eq (V c main_v18) (V c main_v14) (V c main_arg13) (V c main_arg15) (V c main_v19) (V c main_arg16) (V c main_v20)
    (iblk2 V c 0 t) (iblk2 V c 1 t) (iblk2 V c 2 t) (iblk2 V c 3 t) (iblk2 V c 4 t) (iblk2 V c 5 t) (iblk2 V c 6 t)
    (⟨2000 * t.val + p.val, by omega⟩ : Fin 50000) p q
    (fun k => rows_msg V c t p k _ rfl) (fun k => rows_own V c t p k _ rfl)
    (whole_wrel V c t) (whole_bias1 V c t) (whole_wroot V c t) (whole_wlin V c t) (whole_bias2 V c t)).trans ?_
  exact (congrArg (GraphConv.linear (GraphConv.layer (V c main_v18) (V c main_v14) (V c main_arg13) (V c main_arg15) (GraphConv.rowOf (V c main_v19)))
            (V c main_arg16) (GraphConv.rowOf (V c main_v20))) he).symm

/-- Row `r` of the output array lies in the block of point `r / 2000`. -/
theorem cover (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, lt_of_lt_of_eq (show (i 0).val / 2000 < 25 by omega) N_2.symm⟩, rfl⟩
  obtain ⟨-, -, -, -, -, -, -, -, -, -, -, -, -, -, e0, e1⟩ := index_facts t
  refine ⟨t, flush2_7 t, ?_⟩
  show i ∈ ((View.whole main_v21).slice (win2_7.rect t)).set
  rw [View.set_slice_whole, Rect.mem_set_unit]
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * 128 ≤ (i 1).val ∧ (i 1).val < win2_7.index t (1 : Fin 2) * 128 + 128
    omega

end ConvLin

/-- After its last grid point the third launch's output array is the linear map of the layer of its input arrays. -/
theorem region2_value (c : Dev nD) :
    (dat2 (F := Ideal) V c).arrAt 7 cfg2.N =
      GraphConv.linear (GraphConv.layer (V c main_v18) (V c main_v14) (V c main_arg13) (V c main_arg15) (GraphConv.rowOf (V c main_v19)))
        (V c main_arg16) (GraphConv.rowOf (V c main_v20)) :=
  (dat2 (F := Ideal) V c).arrAt_eq_of_cover 7 _ (fun t _ => ConvLin.flushed_eq V c t) ConvLin.cover

end Cert.KernelIdeal.RegionValue

end
-- ==== Proof.KernelChain.lean ====
/-
  The kernel program's result array as a function of the launch memory: the buffer contents at each boundary
  of @main read back, stretch by stretch and launch by launch, to the arguments. Each launch's output is the
  layer (the last one: the layer and the closing linear map) of what the stretch before it aggregated.
-/
import proofs.«426257_j46815143526426_1_alg».proof.Proof.Gen.KernelIdeal.Frame
import proofs.«426257_j46815143526426_1_alg».proof.Proof.KernelStretch
import proofs.«426257_j46815143526426_1_alg».proof.Proof.Region0
import proofs.«426257_j46815143526426_1_alg».proof.Proof.Region1
import proofs.«426257_j46815143526426_1_alg».proof.Proof.Region2

set_option maxRecDepth 16384

noncomputable section

namespace Cert.KernelIdeal.ChainValue

open Cert.KernelIdeal Cert.KernelIdeal.Gen Cert.KernelIdeal.HostValue Cert.KernelIdeal.StretchValue Cert.KernelIdeal.RegionValue
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-! ## The arguments at every boundary -/

/-- An argument the first launch does not stage. -/
abbrev Mid (r : Ref sig .tc) : Prop := r.idx.val < 18 ∧ r ≠ main_arg0 ∧ r ≠ main_arg7 ∧ r ≠ main_arg9
/-- An argument neither the first nor the second launch stages. -/
abbrev Late (r : Ref sig .tc) : Prop := Mid r ∧ r ≠ main_arg1 ∧ r ≠ main_arg10 ∧ r ≠ main_arg12

theorem not_mid_win0 : ∀ w : Fin cfg0.W, ¬ Mid (Pipeline.arrRef spec0 w) := by decide
theorem not_late_win1 : ∀ w : Fin cfg1.W, ¬ Late (Pipeline.arrRef spec1 w) := by decide

theorem arg_W1 (r : Ref sig .tc) (hr : r.idx.val < 18) : W1 m ρ c (Proc.devRef .tc r) = m ((c : Thread nD τ).loc r) :=
  (s0_keeps (W0 m ρ c) r hr).trans rfl
theorem arg_W2 (r : Ref sig .tc) (hr : r.idx.val < 18) : W2 m ρ c (Proc.devRef .tc r) = m ((c : Thread nD τ).loc r) :=
  (s0_1_keeps (W1 m ρ c) r hr).trans (arg_W1 m ρ c r hr)
/-- The first launch reads the measurement features through an input window: they leave it as they entered. -/
theorem arg0_W3 : W3 m ρ c (Proc.devRef .tc main_arg0) = (m ((c : Thread nD τ).loc main_arg0)) :=
  ((W3_arr m ρ c 1).trans (((dat0 (V2 m ρ) c).arrAt_in 1 rfl _).trans (A_eq0 (V2 m ρ) c 1))).trans (arg_W2 m ρ c main_arg0 (by decide))
theorem arg_W3 (r : Ref sig .tc) (h : Mid r) : W3 m ρ c (Proc.devRef .tc r) = m ((c : Thread nD τ).loc r) :=
  (W3_of_ne m ρ c r fun w e => not_mid_win0 w (e ▸ h)).trans (arg_W2 m ρ c r h.1)
theorem arg_W4 (r : Ref sig .tc) (h : Mid r) : W4 m ρ c (Proc.devRef .tc r) = m ((c : Thread nD τ).loc r) :=
  (s1_keeps (W3 m ρ c) r h.1).trans (arg_W3 m ρ c r h)
theorem arg_W5 (r : Ref sig .tc) (h : Mid r) : W5 m ρ c (Proc.devRef .tc r) = m ((c : Thread nD τ).loc r) :=
  (s1_1_keeps (W4 m ρ c) r h.1).trans (arg_W4 m ρ c r h)
theorem arg_W6 (r : Ref sig .tc) (h : Late r) : W6 m ρ c (Proc.devRef .tc r) = m ((c : Thread nD τ).loc r) :=
  (W6_of_ne m ρ c r fun w e => not_late_win1 w (e ▸ h)).trans (arg_W5 m ρ c r h.1)
theorem arg_W7 (r : Ref sig .tc) (h : Late r) : W7 m ρ c (Proc.devRef .tc r) = m ((c : Thread nD τ).loc r) :=
  (s2_keeps (W6 m ρ c) r h.1.1).trans (arg_W6 m ρ c r h)
theorem arg_W8 (r : Ref sig .tc) (h : Late r) : W8 m ρ c (Proc.devRef .tc r) = m ((c : Thread nD τ).loc r) :=
  (s2_1_keeps (W7 m ρ c) r h.1.1).trans (arg_W7 m ρ c r h)

/-! ## The first launch -/

theorem rows0_W1 : W1 m ρ c (Proc.devRef .tc main_v0) = take128 (m ((c : Thread nD τ).loc main_arg0)) (m ((c : Thread nD τ).loc main_arg2)) := s0_rows (W0 m ρ c)

theorem agg0_W2 : W2 m ρ c (Proc.devRef .tc main_v6) = aggW (take128 (m ((c : Thread nD τ).loc main_arg0)) (m ((c : Thread nD τ).loc main_arg2))) (m ((c : Thread nD τ).loc main_arg3)) (m ((c : Thread nD τ).loc main_arg6)) :=
  (s0_1_agg (W1 m ρ c)).trans (by
    rw [rows0_W1 m ρ c, arg_W1 m ρ c main_arg3 (by decide), arg_W1 m ρ c main_arg6 (by decide)])

theorem bias0_W2 : W2 m ρ c (Proc.devRef .tc main_v7) = biasRow256 (m ((c : Thread nD τ).loc main_arg8)) :=
  (s0_1_bias (W1 m ρ c)).trans (by rw [arg_W1 m ρ c main_arg8 (by decide)])

/-- The first layer's output, at the first launch's exit. -/
theorem out0_W3 : W3 m ρ c (Proc.devRef .tc main_v8) = GraphConv.layer (aggW (take128 (m ((c : Thread nD τ).loc main_arg0)) (m ((c : Thread nD τ).loc main_arg2))) (m ((c : Thread nD τ).loc main_arg3)) (m ((c : Thread nD τ).loc main_arg6))) (m ((c : Thread nD τ).loc main_arg0)) (m ((c : Thread nD τ).loc main_arg7)) (m ((c : Thread nD τ).loc main_arg9)) (GraphConv.rowOf (biasRow256 (m ((c : Thread nD τ).loc main_arg8)))) := by
  refine (W3_arr m ρ c 5).trans ((region0_value (V2 m ρ) c).trans ?_)
  show GraphConv.layer (W2 m ρ c (Proc.devRef .tc main_v6)) (W2 m ρ c (Proc.devRef .tc main_arg0)) (W2 m ρ c (Proc.devRef .tc main_arg7)) (W2 m ρ c (Proc.devRef .tc main_arg9))
      (GraphConv.rowOf (W2 m ρ c (Proc.devRef .tc main_v7))) = _
  rw [agg0_W2 m ρ c, bias0_W2 m ρ c, arg_W2 m ρ c main_arg0 (by decide), arg_W2 m ρ c main_arg7 (by decide), arg_W2 m ρ c main_arg9 (by decide)]

/-! ## The second launch -/

theorem rows1_W4 : W4 m ρ c (Proc.devRef .tc main_v9) = take128 (m ((c : Thread nD τ).loc main_arg0)) (m ((c : Thread nD τ).loc main_arg4)) :=
  (s1_rows (W3 m ρ c)).trans (by rw [arg0_W3 m ρ c, arg_W3 m ρ c main_arg4 (by decide)])

theorem agg1_W5 : W5 m ρ c (Proc.devRef .tc main_v12) = agg128 (take128 (m ((c : Thread nD τ).loc main_arg0)) (m ((c : Thread nD τ).loc main_arg4))) (m ((c : Thread nD τ).loc main_arg5)) :=
  (s1_1_agg (W4 m ρ c)).trans (by rw [rows1_W4 m ρ c, arg_W4 m ρ c main_arg5 (by decide)])

theorem bias1_W5 : W5 m ρ c (Proc.devRef .tc main_v13) = biasRow256 (m ((c : Thread nD τ).loc main_arg11)) :=
  (s1_1_bias (W4 m ρ c)).trans (by rw [arg_W4 m ρ c main_arg11 (by decide)])

/-- The second layer's output, at the second launch's exit. -/
theorem out1_W6 : W6 m ρ c (Proc.devRef .tc main_v14) = GraphConv.layer (agg128 (take128 (m ((c : Thread nD τ).loc main_arg0)) (m ((c : Thread nD τ).loc main_arg4))) (m ((c : Thread nD τ).loc main_arg5))) (m ((c : Thread nD τ).loc main_arg1)) (m ((c : Thread nD τ).loc main_arg10)) (m ((c : Thread nD τ).loc main_arg12)) (GraphConv.rowOf (biasRow256 (m ((c : Thread nD τ).loc main_arg11)))) := by
  refine (W6_arr m ρ c 5).trans ((region1_value (V5 m ρ) c).trans ?_)
  show GraphConv.layer (W5 m ρ c (Proc.devRef .tc main_v12)) (W5 m ρ c (Proc.devRef .tc main_arg1)) (W5 m ρ c (Proc.devRef .tc main_arg10)) (W5 m ρ c (Proc.devRef .tc main_arg12))
      (GraphConv.rowOf (W5 m ρ c (Proc.devRef .tc main_v13))) = _
  rw [agg1_W5 m ρ c, bias1_W5 m ρ c, arg_W5 m ρ c main_arg1 (by decide), arg_W5 m ρ c main_arg10 (by decide), arg_W5 m ρ c main_arg12 (by decide)]

/-- The first layer's output is still there when the third stretch of gathers starts. -/
theorem out0_W6 : W6 m ρ c (Proc.devRef .tc main_v8) = GraphConv.layer (aggW (take128 (m ((c : Thread nD τ).loc main_arg0)) (m ((c : Thread nD τ).loc main_arg2))) (m ((c : Thread nD τ).loc main_arg3)) (m ((c : Thread nD τ).loc main_arg6))) (m ((c : Thread nD τ).loc main_arg0)) (m ((c : Thread nD τ).loc main_arg7)) (m ((c : Thread nD τ).loc main_arg9)) (GraphConv.rowOf (biasRow256 (m ((c : Thread nD τ).loc main_arg8)))) :=
  (W6_of_ne m ρ c main_v8 (by decide)).trans ((s1_1_keeps_out0 (W4 m ρ c)).trans ((s1_keeps_out0 (W3 m ρ c)).trans (out0_W3 m ρ c)))

/-! ## The third launch -/

theorem rows2_W7 : W7 m ρ c (Proc.devRef .tc main_v15) = take256 (GraphConv.layer (aggW (take128 (m ((c : Thread nD τ).loc main_arg0)) (m ((c : Thread nD τ).loc main_arg2))) (m ((c : Thread nD τ).loc main_arg3)) (m ((c : Thread nD τ).loc main_arg6))) (m ((c : Thread nD τ).loc main_arg0)) (m ((c : Thread nD τ).loc main_arg7)) (m ((c : Thread nD τ).loc main_arg9)) (GraphConv.rowOf (biasRow256 (m ((c : Thread nD τ).loc main_arg8))))) (m ((c : Thread nD τ).loc main_arg4)) :=
  (s2_rows (W6 m ρ c)).trans (by rw [out0_W6 m ρ c, arg_W6 m ρ c main_arg4 (by decide)])

theorem agg2_W8 : W8 m ρ c (Proc.devRef .tc main_v18) = agg256 (take256 (GraphConv.layer (aggW (take128 (m ((c : Thread nD τ).loc main_arg0)) (m ((c : Thread nD τ).loc main_arg2))) (m ((c : Thread nD τ).loc main_arg3)) (m ((c : Thread nD τ).loc main_arg6))) (m ((c : Thread nD τ).loc main_arg0)) (m ((c : Thread nD τ).loc main_arg7)) (m ((c : Thread nD τ).loc main_arg9)) (GraphConv.rowOf (biasRow256 (m ((c : Thread nD τ).loc main_arg8))))) (m ((c : Thread nD τ).loc main_arg4))) (m ((c : Thread nD τ).loc main_arg5)) :=
  (s2_1_agg (W7 m ρ c)).trans (by rw [rows2_W7 m ρ c, arg_W7 m ρ c main_arg5 (by decide)])

theorem bias2_W8 : W8 m ρ c (Proc.devRef .tc main_v19) = biasRow256 (m ((c : Thread nD τ).loc main_arg14)) :=
  (s2_1_bias (W7 m ρ c)).trans (by rw [arg_W7 m ρ c main_arg14 (by decide)])

theorem biasOut_W8 : W8 m ρ c (Proc.devRef .tc main_v20) = biasRow128 (m ((c : Thread nD τ).loc main_arg17)) :=
  (s2_1_bias_out (W7 m ρ c)).trans (by rw [arg_W7 m ρ c main_arg17 (by decide)])

theorem out1_W8 : W8 m ρ c (Proc.devRef .tc main_v14) = GraphConv.layer (agg128 (take128 (m ((c : Thread nD τ).loc main_arg0)) (m ((c : Thread nD τ).loc main_arg4))) (m ((c : Thread nD τ).loc main_arg5))) (m ((c : Thread nD τ).loc main_arg1)) (m ((c : Thread nD τ).loc main_arg10)) (m ((c : Thread nD τ).loc main_arg12)) (GraphConv.rowOf (biasRow256 (m ((c : Thread nD τ).loc main_arg11)))) :=
  (s2_1_keeps_out1 (W7 m ρ c)).trans ((s2_keeps_out1 (W6 m ρ c)).trans (out1_W6 m ρ c))

/-- The program's result: the third layer over the first two, then the closing linear map. -/
theorem result_value : W9 m ρ c (Proc.devRef .tc main_v21) = GraphConv.linear (GraphConv.layer (agg256 (take256 (GraphConv.layer (aggW (take128 (m ((c : Thread nD τ).loc main_arg0)) (m ((c : Thread nD τ).loc main_arg2))) (m ((c : Thread nD τ).loc main_arg3)) (m ((c : Thread nD τ).loc main_arg6))) (m ((c : Thread nD τ).loc main_arg0)) (m ((c : Thread nD τ).loc main_arg7)) (m ((c : Thread nD τ).loc main_arg9)) (GraphConv.rowOf (biasRow256 (m ((c : Thread nD τ).loc main_arg8))))) (m ((c : Thread nD τ).loc main_arg4))) (m ((c : Thread nD τ).loc main_arg5))) (GraphConv.layer (agg128 (take128 (m ((c : Thread nD τ).loc main_arg0)) (m ((c : Thread nD τ).loc main_arg4))) (m ((c : Thread nD τ).loc main_arg5))) (m ((c : Thread nD τ).loc main_arg1)) (m ((c : Thread nD τ).loc main_arg10)) (m ((c : Thread nD τ).loc main_arg12)) (GraphConv.rowOf (biasRow256 (m ((c : Thread nD τ).loc main_arg11))))) (m ((c : Thread nD τ).loc main_arg13)) (m ((c : Thread nD τ).loc main_arg15)) (GraphConv.rowOf (biasRow256 (m ((c : Thread nD τ).loc main_arg14))))) (m ((c : Thread nD τ).loc main_arg16)) (GraphConv.rowOf (biasRow128 (m ((c : Thread nD τ).loc main_arg17)))) := by
  refine (W9_arr m ρ c 7).trans ((region2_value (V8 m ρ) c).trans ?_)
  show GraphConv.linear (GraphConv.layer (W8 m ρ c (Proc.devRef .tc main_v18)) (W8 m ρ c (Proc.devRef .tc main_v14)) (W8 m ρ c (Proc.devRef .tc main_arg13)) (W8 m ρ c (Proc.devRef .tc main_arg15))
      (GraphConv.rowOf (W8 m ρ c (Proc.devRef .tc main_v19)))) (W8 m ρ c (Proc.devRef .tc main_arg16)) (GraphConv.rowOf (W8 m ρ c (Proc.devRef .tc main_v20))) = _
  rw [agg2_W8 m ρ c, out1_W8 m ρ c, bias2_W8 m ρ c, biasOut_W8 m ρ c, arg_W8 m ρ c main_arg13 (by decide), arg_W8 m ρ c main_arg15 (by decide),
    arg_W8 m ρ c main_arg16 (by decide)]

end Cert.KernelIdeal.ChainValue

end
-- ==== Proof.PreRange.lean ====
/-
  The stated precondition puts both source-index vectors inside the 100000-row table.
-/
import proofs.«426257_j46815143526426_1_alg».proof.Defs
import proofs.«426257_j46815143526426_1_alg».proof.Proof.Gen.Pre_finite_inputs
import proofs.«426257_j46815143526426_1_alg».proof.Proof.KernelHost
import Idealize.ShloMosaic.Lib.ReduceAll
import Idealize.ShloMosaic.Lib.StableHlo.Predicate

set_option maxRecDepth 16384

noncomputable section

namespace Cert.KernelIdeal.HostValue

open Cert.KernelIdeal Cert.KernelIdeal.Gen Idealize.ShloMosaic Idealize.ShloMosaic.TcCoe Idealize.SL.Sem

/-- A shape of rank zero has exactly one index. -/
instance subsingleton_scalar_idx : Subsingleton (Cert.Pre_finite_inputs.S_).Idx :=
  ⟨fun _ _ => funext fun d => d.elim0⟩

/-- An all-ones "every entry is at least zero" test, read at one entry. -/
theorem all_sge_zero (s : IVec S800000 32)
    (h : Host.reduce IntOp.andi
        (cmpi .sge s (broadcastInDim Cert.Pre_finite_inputs.S800000 ![] Cert.Pre_finite_inputs.Facts.bcast_S_S800000
          (constantI Cert.Pre_finite_inputs.S_ 32 0#32)))
        (constantI Cert.Pre_finite_inputs.S_ 1 1#1)
        Cert.Pre_finite_inputs.Facts.reducesTo_S800000_S_d0 Cert.Pre_finite_inputs.Facts.h_S_ ValueIdx.ix0 = 1#1)
    (e : S800000.Idx) : IntOp.cmpi .sge (s e) 0#32 = 1#1 :=
  Host.reduce_andi_all _ _ _ _ _ h e

/-- An all-ones "every entry is below 100000" test, read at one entry. -/
theorem all_slt_rows (s : IVec S800000 32)
    (h : Host.reduce IntOp.andi
        (cmpi .slt s (broadcastInDim Cert.Pre_finite_inputs.S800000 ![] Cert.Pre_finite_inputs.Facts.bcast_S_S800000
          (constantI Cert.Pre_finite_inputs.S_ 32 100000#32)))
        (constantI Cert.Pre_finite_inputs.S_ 1 1#1)
        Cert.Pre_finite_inputs.Facts.reducesTo_S800000_S_d0 Cert.Pre_finite_inputs.Facts.h_S_ ValueIdx.ix0 = 1#1)
    (e : S800000.Idx) : IntOp.cmpi .slt (s e) 100000#32 = 1#1 :=
  Host.reduce_andi_all _ _ _ _ _ h e

/-- The last two parts of the printed predicate are a five-fold conjunction whose last four conjuncts are the
    range tests of the two index vectors; if it is one, both vectors lie in the table. -/
theorem inTable_of_part4 (a2 a4 : IVec S800000 32) (p q : IVec Cert.Pre_finite_inputs.S_ 1)
    (h : Cert.Pre_finite_inputs.fn_part4 (F := Ideal) a2 a4 p q ValueIdx.ix0 = 1#1) : InTable a2 ∧ InTable a4 := by
  unfold Cert.Pre_finite_inputs.fn_part4 Cert.Pre_finite_inputs.fn_part5 at h
  simp only [andi, IntOp.andi_eq_one] at h
  obtain ⟨⟨⟨⟨-, h1⟩, h2⟩, h3⟩, h4⟩ := h
  exact ⟨fun e => ⟨all_sge_zero a2 h1 e, all_slt_rows a2 h2 e⟩, fun e => ⟨all_sge_zero a4 h3 e, all_slt_rows a4 h4 e⟩⟩

/-- Under the precondition the two source-index arguments index the table in range, on every device. -/
theorem inTable_of_pre (m : (ℓ : Loc nD τ sig) → Buf (Elt Ideal) ℓ) (h : Cert.Pre_KernelIdeal m) (c : Dev nD) :
    InTable (m ((c.tc : Thread nD τ).loc main_arg2)) ∧ InTable (m ((c.tc : Thread nD τ).loc main_arg4)) :=
  inTable_of_part4 _ _ _ _ (congrFun (h c) ValueIdx.ix0)

end Cert.KernelIdeal.HostValue

end
-- ==== Proof.TakeRows.lean ====
/-
  With every index inside the table the filling gather is the plain gather, and a bias laid out as one
  row reads back as the bias.
-/
import proofs.«426257_j46815143526426_1_alg».proof.Proof.KernelHost
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

set_option maxRecDepth 16384

noncomputable section

namespace Cert.KernelIdeal.HostValue

open Cert.KernelIdeal Cert.KernelIdeal.Gen Idealize.ShloMosaic

/-! ## Word facts -/

/-- A one-bit word that is not one is zero. -/
private theorem bit_eq_zero_of_ne_one : ∀ c : BitVec 1, c ≠ 1#1 → c = 0#1 := by decide

/-- A word that is at least zero (read signed) is not below zero. -/
private theorem slt_zero_of_sge {x : BitVec 32} (hx : IntOp.cmpi .sge x 0#32 = 1#1) : IntOp.cmpi .slt x 0#32 = 0#1 :=
  bit_eq_zero_of_ne_one _ fun hc => absurd (IntOp.cmpi_slt.1 hc) (not_lt.2 (IntOp.cmpi_sge.1 hx))

/-- A word below 100000 (read signed) is at most 99999. -/
private theorem sle_of_slt {x : BitVec 32} (hx : IntOp.cmpi .slt x 100000#32 = 1#1) : IntOp.cmpi .sle x 99999#32 = 1#1 := by
  have h1 := IntOp.cmpi_slt.1 hx
  refine IntOp.cmpi_sle.2 ?_
  have e1 : (100000#32 : BitVec 32).toInt = 100000 := by decide
  have e2 : (99999#32 : BitVec 32).toInt = 99999 := by decide
  omega

/-- A left fold by `and` from one over one-bit words that are all one is one. -/
private theorem foldl_andi_one {ι : Type} (f : ι → BitVec 1) (hf : ∀ n, f n = 1#1) :
    ∀ (l : List ι) (init : BitVec 1), init = 1#1 → l.foldl (fun r n => IntOp.andi r (f n)) init = 1#1
  | [], _, hi => hi
  | a :: l, init, hi => by
    rw [List.foldl_cons]
    exact foldl_andi_one f hf l _ (IntOp.andi_eq_one.2 ⟨hi, hf a⟩)

/-! ## The wrapped index column -/

/-- With every index inside the table nothing is wrapped: the select between an index and the index plus the
    table's height keeps the index. -/
theorem wrap_apply (s : IVec S800000 32) (h : InTable s) (k : S800000.Idx) :
    select (cmpi .slt s (broadcastInDim S800000 ![] Facts₀.bcast_S_S800000 (constantI S_ 32 0#32)))
      (addi s (broadcastInDim S800000 ![] Facts₀.bcast_S_S800000 (constantI S_ 32 100000#32))) s k = s k := by
  rw [ValueIdx.select_apply]
  show Scalar.select (IntOp.cmpi .slt (s k) 0#32) _ _ = _
  rw [slt_zero_of_sge (h k).1, ValueIdx.select_zero]

/-- So each entry of the index column is an entry of the index vector itself. -/
theorem rowIdx_apply (s : IVec S800000 32) (h : InTable s) (i : S800000x1.Idx) : ∃ k : S800000.Idx, rowIdx s i = s k := by
  unfold rowIdx
  simp only [broadcastInDim]
  exact ⟨_, wrap_apply s h _⟩

/-- Both range tests hold at every entry of the index column. -/
theorem inRange_apply (s : IVec S800000 32) (h : InTable s) (i : S800000x1.Idx) :
    andi (cmpi .sge (rowIdx s) (broadcastInDim S800000x1 ![] Facts₀.bcast_S_S800000x1 (constantI S_ 32 0#32)))
      (cmpi .sle (rowIdx s) (broadcastInDim S800000x1 ![0, 1] Facts₀.bcast_S1x1_S800000x1_0_1
        (broadcastInDim S1x1 ![1] Facts₀.bcast_S1_S1x1_1 (constantI S1 32 99999#32)))) i = 1#1 := by
  obtain ⟨k, hk⟩ := rowIdx_apply s h i
  show IntOp.andi (IntOp.cmpi .sge (rowIdx s i) 0#32) (IntOp.cmpi .sle (rowIdx s i) 99999#32) = 1#1
  rw [hk]
  exact IntOp.andi_eq_one.2 ⟨(h k).1, sle_of_slt (h k).2⟩

/-- Indices inside the table: the in-table test is one at every edge. -/
theorem inTable_one (s : IVec S800000 32) (h : InTable s) (e : S800000.Idx) : inTable s e = 1#1 := by
  unfold inTable
  refine (Host.reduce_eq_foldl _ _ _ _ _ e).trans ?_
  exact foldl_andi_one _ (inRange_apply s h) _ _ rfl

/-- The filling gather of a 128-column table is the plain gather: the mask is one on every row. -/
theorem take128_eq (x : FVec Ideal S100000x128 .f32) (s : IVec S800000 32) (h : InTable s) : take128 x s = rows128 x s := by
  funext i
  unfold take128
  rw [ValueIdx.select_apply]
  simp only [broadcastInDim]
  rw [inTable_one s h, ValueIdx.select_one]

/-- The filling gather of a 256-column table is the plain gather. -/
theorem take256_eq (x : FVec Ideal S100000x256 .f32) (s : IVec S800000 32) (h : InTable s) : take256 x s = rows256 x s := by
  funext i
  unfold take256
  rw [ValueIdx.select_apply]
  simp only [broadcastInDim]
  rw [inTable_one s h, ValueIdx.select_one]

/-- A 256-entry bias laid out as one row and read back along that row is the bias. -/
theorem rowOf_biasRow256 (b : FVec Ideal S256 .f32) : GraphConv.rowOf (biasRow256 b) = b := by
  funext j
  show shapeCast S1x256 b Facts₀.shapeCasts_S256_S1x256 (ValueIdx.ix2 (0 : Fin 1) (j 0)) = b j
  refine (shapeCast_addUnit_apply ![256] b _ _).trans ?_
  refine congrArg b (funext fun a => ?_)
  match a with
  | ⟨0, _⟩ => rfl

/-- A 128-entry bias laid out as one row and read back along that row is the bias. -/
theorem rowOf_biasRow128 (b : FVec Ideal S128 .f32) : GraphConv.rowOf (biasRow128 b) = b := by
  funext j
  show shapeCast S1x128 b Facts₀.shapeCasts_S128_S1x128 (ValueIdx.ix2 (0 : Fin 1) (j 0)) = b j
  refine (shapeCast_addUnit_apply ![128] b _ _).trans ?_
  refine congrArg b (funext fun a => ?_)
  match a with
  | ⟨0, _⟩ => rfl

end Cert.KernelIdeal.HostValue

end
-- ==== Proof.RefSide.lean ====
/-
  The reference program's result as the layer and linear maps of `Spec.lean` over its gathers and
  scatter-add aggregations: each `dot_general` is a plain sum at the extended reals, each bias a broadcast
  read back at its column, each rectifier a maximum with zero.
-/
import proofs.«426257_j46815143526426_1_alg».proof.Proof.Gen.ReferenceIdeal.Run
import proofs.«426257_j46815143526426_1_alg».proof.Proof.Gen.ReferenceIdeal.Read
import proofs.«426257_j46815143526426_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

/-- The column of row indices a gather reads: an index below zero has the table's height added once. -/
def rowIdx (s : IVec S800000 32) : IVec S800000x1 32 :=
  broadcastInDim S800000x1 ![0] Facts₀.bcast_S800000_S800000x1_0
    (select (cmpi .slt s (broadcastInDim S800000 ![] Facts₀.bcast_S_S800000 (constantI S_ 32 0#32)))
      (addi s (broadcastInDim S800000 ![] Facts₀.bcast_S_S800000 (constantI S_ 32 100000#32))) s)

/-- The rows of a 128-column table at the wrapped indices. -/
def rows128 (x : FVec Ideal S100000x128 .f32) (s : IVec S800000 32) : FVec Ideal S800000x128 .f32 :=
  Host.gather gather_S100000x128_S800000x1_S800000x128_1_0_n_n_0_1_1128 x (rowIdx s)

/-- The rows of a 256-column table at the wrapped indices. -/
def rows256 (x : FVec Ideal S100000x256 .f32) (s : IVec S800000 32) : FVec Ideal S800000x256 .f32 :=
  Host.gather gather_S100000x256_S800000x1_S800000x256_1_0_n_n_0_1_1256 x (rowIdx s)

/-- Edge messages, each scaled by its edge's weight, summed into their destination rows (100000 rows of 128). -/
def aggW (rows : FVec Ideal S800000x128 .f32) (d : IVec S800000 32) (w : FVec Ideal S800000 .f32) : FVec Ideal S100000x128 .f32 :=
  Host.scatterAdd scatter_S100000x128_S800000x1_S800000x128_1_0_0_1
    (broadcastInDim S100000x128 ![] Facts₀.bcast_S_S100000x128 (constant S_ .f32 0x00000000#32))
    (broadcastInDim S800000x1 ![0] Facts₀.bcast_S800000_S800000x1_0 d)
    (mulf rows (broadcastInDim S800000x128 ![0, 1] Facts₀.bcast_S800000x1_S800000x128_0_1
      (broadcastInDim S800000x1 ![0] Facts₀.bcast_S800000_S800000x1_0 w)))

/-- Edge messages summed into their destination rows (50000 rows of 128). -/
def agg128 (rows : FVec Ideal S800000x128 .f32) (d : IVec S800000 32) : FVec Ideal S50000x128 .f32 :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 d) rows

/-- Edge messages summed into their destination rows (50000 rows of 256). -/
def agg256 (rows : FVec Ideal S800000x256 .f32) (d : IVec S800000 32) : FVec Ideal S50000x256 .f32 :=
  Host.scatterAdd scatter_S50000x256_S800000x1_S800000x256_1_0_0_1
    (broadcastInDim S50000x256 ![] Facts₀.bcast_S_S50000x256 (constant S_ .f32 0x00000000#32))
    (broadcastInDim S800000x1 ![0] Facts₀.bcast_S800000_S800000x1_0 d) rows

section Elements

open Idealize.ShloMosaic.ValueIdx

/-! ## One element of a product, of a broadcast bias and of the zero array -/

/-- A product contracting the left operand's columns with the right operand's rows, read at row `p` and column `c`:
    the plain sum over the one contraction coordinate. The four hypotheses say which coordinate each operand index takes
    from the result index and which from the contraction index. -/
theorem dot_apply {N K H : Nat} (D : DotDims ⟨2, ![N, K]⟩ ⟨2, ![K, H]⟩ ⟨2, ![N, H]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![N, K]⟩ .f32) (r : FVec Ideal ⟨2, ![K, H]⟩ .f32) (p : Fin N) (c : Fin H) :
    Host.dotGeneral (F := Ideal) D none l r (ix2 p c) = ∑ k : Fin K, l (ix2 p k) * r (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

/-- A bias vector made a one-row matrix and then repeated down the rows reads, at row `p` and column `c`, its entry `c`. -/
theorem bias_apply {N H : Nat} (hH : H ≠ 1)
    (h1 : (⟨1, ![H]⟩ : Shape).BroadcastsInDim ⟨2, ![1, H]⟩ (![1] : Fin 1 → Fin 2))
    (h2 : (⟨2, ![1, H]⟩ : Shape).BroadcastsInDim ⟨2, ![N, H]⟩ (![0, 1] : Fin 2 → Fin 2))
    (b : FVec Ideal ⟨1, ![H]⟩ .f32) (p : Fin N) (c : Fin H) :
    broadcastInDim ⟨2, ![N, H]⟩ ![0, 1] h2 (broadcastInDim ⟨2, ![1, H]⟩ ![1] h1 b) (ix2 p c) = b (ix1 c) :=
  (broadcastInDim_apply _ h2 _ (ix2 p c) (ix2 (0 : Fin 1) c) (fun a => match a with
    | ⟨0, _⟩ => by show 0 = if (1 : Nat) = 1 then 0 else p.val; rw [if_pos rfl]
    | ⟨1, _⟩ => by show c.val = if H = 1 then 0 else c.val; rw [if_neg hH])).trans
  (broadcastInDim_apply _ h1 b (ix2 (0 : Fin 1) c) (ix1 c) (fun a => match a with
    | ⟨0, _⟩ => by show c.val = if H = 1 then 0 else c.val; rw [if_neg hH]))

/-- The zero word repeated over a whole array reads zero everywhere. -/
theorem zero_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  (broadcastInDim_apply _ h _ i ix0 (fun a => a.elim0)).trans ((constant_apply _ _).trans Ideal.ofBits_zero_f32)

/-! ## The program's own shapes -/

/-- The first layer's products: 100000 rows, 128 contracted, 256 columns. -/
theorem dotA_apply (l : FVec Ideal S100000x128 .f32) (r : FVec Ideal S128x256 .f32) (p : Fin 100000) (c : Fin 256) :
    Host.dotGeneral (F := Ideal) dot_S100000x128_S128x256_S100000x256_1_0_0_1_n_n none l r (ix2 p c) = ∑ k : Fin 128, l (ix2 p k) * r (ix2 k c) :=
  dot_apply dot_S100000x128_S128x256_S100000x256_1_0_0_1_n_n rfl rfl Read.lhs_main_v13_0 Read.lhs_main_v13_1 Read.rhs_main_v13_0 Read.rhs_main_v13_1 l r p c

/-- The second layer's products: 50000 rows, 128 contracted, 256 columns. -/
theorem dotB_apply (l : FVec Ideal S50000x128 .f32) (r : FVec Ideal S128x256 .f32) (p : Fin 50000) (c : Fin 256) :
    Host.dotGeneral (F := Ideal) dot_S50000x128_S128x256_S50000x256_1_0_0_1_n_n none l r (ix2 p c) = ∑ k : Fin 128, l (ix2 p k) * r (ix2 k c) :=
  dot_apply dot_S50000x128_S128x256_S50000x256_1_0_0_1_n_n rfl rfl Read.lhs_main_v30_0 Read.lhs_main_v30_1 Read.rhs_main_v30_0 Read.rhs_main_v30_1 l r p c

/-- The third layer's products: 50000 rows, 256 contracted, 256 columns. -/
theorem dotC_apply (l : FVec Ideal S50000x256 .f32) (r : FVec Ideal S256x256 .f32) (p : Fin 50000) (c : Fin 256) :
    Host.dotGeneral (F := Ideal) dot_S50000x256_S256x256_S50000x256_1_0_0_1_n_n none l r (ix2 p c) = ∑ k : Fin 256, l (ix2 p k) * r (ix2 k c) :=
  dot_apply dot_S50000x256_S256x256_S50000x256_1_0_0_1_n_n rfl rfl Read.lhs_main_v47_0 Read.lhs_main_v47_1 Read.rhs_main_v47_0 Read.rhs_main_v47_1 l r p c

/-- The closing map's product: 50000 rows, 256 contracted, 128 columns. -/
theorem dotD_apply (l : FVec Ideal S50000x256 .f32) (r : FVec Ideal S256x128 .f32) (p : Fin 50000) (c : Fin 128) :
    Host.dotGeneral (F := Ideal) dot_S50000x256_S256x128_S50000x128_1_0_0_1_n_n none l r (ix2 p c) = ∑ k : Fin 256, l (ix2 p k) * r (ix2 k c) :=
  dot_apply dot_S50000x256_S256x128_S50000x128_1_0_0_1_n_n rfl rfl Read.lhs_main_v54_0 Read.lhs_main_v54_1 Read.rhs_main_v54_0 Read.rhs_main_v54_1 l r p c

/-- A 256-entry bias down 100000 rows. -/
theorem biasA_apply (b : FVec Ideal S256 .f32) (p : Fin 100000) (c : Fin 256) :
    broadcastInDim S100000x256 ![0, 1] Facts₀.bcast_S1x256_S100000x256_0_1 (broadcastInDim S1x256 ![1] Facts₀.bcast_S256_S1x256_1 b) (ix2 p c) = b (ix1 c) :=
  bias_apply (by decide) Facts₀.bcast_S256_S1x256_1 Facts₀.bcast_S1x256_S100000x256_0_1 b p c

/-- A 256-entry bias down 50000 rows. -/
theorem biasB_apply (b : FVec Ideal S256 .f32) (p : Fin 50000) (c : Fin 256) :
    broadcastInDim S50000x256 ![0, 1] Facts₀.bcast_S1x256_S50000x256_0_1 (broadcastInDim S1x256 ![1] Facts₀.bcast_S256_S1x256_1 b) (ix2 p c) = b (ix1 c) :=
  bias_apply (by decide) Facts₀.bcast_S256_S1x256_1 Facts₀.bcast_S1x256_S50000x256_0_1 b p c

/-- A 128-entry bias down 50000 rows. -/
theorem biasD_apply (b : FVec Ideal S128 .f32) (p : Fin 50000) (c : Fin 128) :
    broadcastInDim S50000x128 ![0, 1] Facts₀.bcast_S1x128_S50000x128_0_1 (broadcastInDim S1x128 ![1] Facts₀.bcast_S128_S1x128_1 b) (ix2 p c) = b (ix1 c) :=
  bias_apply (by decide) Facts₀.bcast_S128_S1x128_1 Facts₀.bcast_S1x128_S50000x128_0_1 b p c

/-- The rectifier's zero array, 100000 rows. -/
theorem zeroA_apply (i : S100000x256.Idx) :
    broadcastInDim S100000x256 ![] Facts₀.bcast_S_S100000x256 (constant (F := Ideal) S_ .f32 0x00000000#32) i = (0 : EReal) :=
  zero_apply Facts₀.bcast_S_S100000x256 i

/-- The rectifier's zero array, 50000 rows. -/
theorem zeroB_apply (i : S50000x256.Idx) :
    broadcastInDim S50000x256 ![] Facts₀.bcast_S_S50000x256 (constant (F := Ideal) S_ .f32 0x00000000#32) i = (0 : EReal) :=
  zero_apply Facts₀.bcast_S_S50000x256 i

/-! ## A layer of the program is a layer of the specification

The program adds the bias between the two products and the specification after them. -/

/-- The first layer, over any aggregated array `a`. -/
theorem layer1_eq (a x : FVec Ideal S100000x128 .f32) (wr wt : FVec Ideal S128x256 .f32) (b : FVec Ideal S256 .f32) :
    maximumf (addf (addf (Host.dotGeneral (F := Ideal) dot_S100000x128_S128x256_S100000x256_1_0_0_1_n_n none a wr)
          (broadcastInDim S100000x256 ![0, 1] Facts₀.bcast_S1x256_S100000x256_0_1 (broadcastInDim S1x256 ![1] Facts₀.bcast_S256_S1x256_1 b)))
        (Host.dotGeneral (F := Ideal) dot_S100000x128_S128x256_S100000x256_1_0_0_1_n_n none x wt))
      (broadcastInDim S100000x256 ![] Facts₀.bcast_S_S100000x256 (constant (F := Ideal) S_ .f32 0x00000000#32)) =
    GraphConv.layer a x wr wt b := by
  funext i
  obtain ⟨p, q, rfl⟩ : ∃ (p : Fin 100000) (q : Fin 256), i = ix2 p q := ⟨i 0, i 1, eq_ix2 i⟩
  rw [GraphConv.layer_apply, maximumf_apply, addf_apply, addf_apply, dotA_apply, dotA_apply, biasA_apply, zeroA_apply,
    GraphConv.add_bias_comm]

/-- The second layer, over any aggregated array `a`. -/
theorem layer2_eq (a x : FVec Ideal S50000x128 .f32) (wr wt : FVec Ideal S128x256 .f32) (b : FVec Ideal S256 .f32) :
    maximumf (addf (addf (Host.dotGeneral (F := Ideal) dot_S50000x128_S128x256_S50000x256_1_0_0_1_n_n none a wr)
          (broadcastInDim S50000x256 ![0, 1] Facts₀.bcast_S1x256_S50000x256_0_1 (broadcastInDim S1x256 ![1] Facts₀.bcast_S256_S1x256_1 b)))
        (Host.dotGeneral (F := Ideal) dot_S50000x128_S128x256_S50000x256_1_0_0_1_n_n none x wt))
      (broadcastInDim S50000x256 ![] Facts₀.bcast_S_S50000x256 (constant (F := Ideal) S_ .f32 0x00000000#32)) =
    GraphConv.layer a x wr wt b := by
  funext i
  obtain ⟨p, q, rfl⟩ : ∃ (p : Fin 50000) (q : Fin 256), i = ix2 p q := ⟨i 0, i 1, eq_ix2 i⟩
  rw [GraphConv.layer_apply, maximumf_apply, addf_apply, addf_apply, dotB_apply, dotB_apply, biasB_apply, zeroB_apply,
    GraphConv.add_bias_comm]

/-- The third layer, over any aggregated array `a` and any hidden features `x`. -/
theorem layer3_eq (a x : FVec Ideal S50000x256 .f32) (wr wt : FVec Ideal S256x256 .f32) (b : FVec Ideal S256 .f32) :
    maximumf (addf (addf (Host.dotGeneral (F := Ideal) dot_S50000x256_S256x256_S50000x256_1_0_0_1_n_n none a wr)
          (broadcastInDim S50000x256 ![0, 1] Facts₀.bcast_S1x256_S50000x256_0_1 (broadcastInDim S1x256 ![1] Facts₀.bcast_S256_S1x256_1 b)))
        (Host.dotGeneral (F := Ideal) dot_S50000x256_S256x256_S50000x256_1_0_0_1_n_n none x wt))
      (broadcastInDim S50000x256 ![] Facts₀.bcast_S_S50000x256 (constant (F := Ideal) S_ .f32 0x00000000#32)) =
    GraphConv.layer a x wr wt b := by
  funext i
  obtain ⟨p, q, rfl⟩ : ∃ (p : Fin 50000) (q : Fin 256), i = ix2 p q := ⟨i 0, i 1, eq_ix2 i⟩
  rw [GraphConv.layer_apply, maximumf_apply, addf_apply, addf_apply, dotC_apply, dotC_apply, biasB_apply, zeroB_apply,
    GraphConv.add_bias_comm]

/-- The closing linear map, over any hidden features `h`. -/
theorem linear_eq (h : FVec Ideal S50000x256 .f32) (w : FVec Ideal S256x128 .f32) (b : FVec Ideal S128 .f32) :
    addf (Host.dotGeneral (F := Ideal) dot_S50000x256_S256x128_S50000x128_1_0_0_1_n_n none h w)
      (broadcastInDim S50000x128 ![0, 1] Facts₀.bcast_S1x128_S50000x128_0_1 (broadcastInDim S1x128 ![1] Facts₀.bcast_S128_S1x128_1 b)) =
    GraphConv.linear h w b := by
  funext i
  obtain ⟨p, q, rfl⟩ : ∃ (p : Fin 50000) (q : Fin 128), i = ix2 p q := ⟨i 0, i 1, eq_ix2 i⟩
  rw [GraphConv.linear_apply, addf_apply, dotD_apply, biasD_apply]

end Elements

/-- The reference's result array is three layers and the closing linear map over its aggregations. -/
theorem result_value (m : (ℓ : Loc nD τ sig) → Buf (Elt Ideal) ℓ) (c : Dev nD) :
    Value.res_main_v57 (F := Ideal) m c =
      GraphConv.linear
        (GraphConv.layer
          (agg256 (rows256 (GraphConv.layer
              (aggW (rows128 (m ((c.tc : Thread nD τ).loc main_arg0)) (m ((c.tc : Thread nD τ).loc main_arg2)))
                (m ((c.tc : Thread nD τ).loc main_arg3)) (m ((c.tc : Thread nD τ).loc main_arg6)))
              (m ((c.tc : Thread nD τ).loc main_arg0)) (m ((c.tc : Thread nD τ).loc main_arg7)) (m ((c.tc : Thread nD τ).loc main_arg9))
              (m ((c.tc : Thread nD τ).loc main_arg8)))
            (m ((c.tc : Thread nD τ).loc main_arg4))) (m ((c.tc : Thread nD τ).loc main_arg5)))
          (GraphConv.layer
            (agg128 (rows128 (m ((c.tc : Thread nD τ).loc main_arg0)) (m ((c.tc : Thread nD τ).loc main_arg4))) (m ((c.tc : Thread nD τ).loc main_arg5)))
            (m ((c.tc : Thread nD τ).loc main_arg1)) (m ((c.tc : Thread nD τ).loc main_arg10)) (m ((c.tc : Thread nD τ).loc main_arg12))
            (m ((c.tc : Thread nD τ).loc main_arg11)))
          (m ((c.tc : Thread nD τ).loc main_arg13)) (m ((c.tc : Thread nD τ).loc main_arg15)) (m ((c.tc : Thread nD τ).loc main_arg14)))
        (m ((c.tc : Thread nD τ).loc main_arg16)) (m ((c.tc : Thread nD τ).loc main_arg17)) := by
  -- each rectified sum inside the result term is a layer, innermost first; what is left differs from the right side only by
  -- the names of the gathers and aggregations
  unfold Value.res_main_v57
  rw [layer1_eq, layer2_eq, layer3_eq, linear_eq]
  rfl

end Cert.ReferenceIdeal.RefValue

end
-- ==== Proof.lean ====
/-
  The certificate's five claims for the three-layer graph network.

  Both programs compute, at the extended reals,
      out = linear (layer (agg₃ (layer (agg₁ x …) x …)) (layer (agg₂ x …) x_demand …) …) W_lin b_lin,
  each layer being  max (Σ_k a[r,k]·W_rel[k,c] + Σ_k x[r,k]·W_root[k,c] + b[c]) 0  and each aggregation a
  gather of rows along the edge sources followed by a scatter-add into the edge destinations. The kernel's
  program computes the layers in three row-blocked launches and adds the bias after the second product; the
  reference adds it before: the same sum. The two differ in one place only: the kernel's gather replaces a row
  whose source index falls outside the table by the not-a-number word, the reference's does not. The stated
  precondition puts every source index inside the table, where the two gathers agree, so the two results are
  one function of the arguments. No finiteness of the float inputs is used: the sums are reordered by
  commutativity and associativity alone.
-/
import proofs.«426257_j46815143526426_1_alg».proof.Defs
import proofs.«426257_j46815143526426_1_alg».proof.Proof.Gen.Kernel
import proofs.«426257_j46815143526426_1_alg».proof.Proof.Gen.Kernel.Skeleton
import proofs.«426257_j46815143526426_1_alg».proof.Proof.Gen.Kernel.Launch
import proofs.«426257_j46815143526426_1_alg».proof.Proof.Gen.Kernel.Points
import proofs.«426257_j46815143526426_1_alg».proof.Proof.Gen.Kernel.Frame
import proofs.«426257_j46815143526426_1_alg».proof.Proof.Gen.KernelIdeal
import proofs.«426257_j46815143526426_1_alg».proof.Proof.Gen.KernelIdeal.Skeleton
import proofs.«426257_j46815143526426_1_alg».proof.Proof.Gen.KernelIdeal.Launch
import proofs.«426257_j46815143526426_1_alg».proof.Proof.Gen.KernelIdeal.Points
import proofs.«426257_j46815143526426_1_alg».proof.Proof.Gen.KernelIdeal.Frame
import proofs.«426257_j46815143526426_1_alg».proof.Proof.Gen.ReferenceIdeal
import proofs.«426257_j46815143526426_1_alg».proof.Proof.Gen.ReferenceIdeal.Run
import proofs.«426257_j46815143526426_1_alg».proof.Proof.Gen.Pre_finite_inputs
import proofs.«426257_j46815143526426_1_alg».proof.Proof.KernelRun
import proofs.«426257_j46815143526426_1_alg».proof.Proof.KernelChain
import proofs.«426257_j46815143526426_1_alg».proof.Proof.PreRange
import proofs.«426257_j46815143526426_1_alg».proof.Proof.TakeRows
import proofs.«426257_j46815143526426_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-! ## The two programs' host functions are the same functions

Each program prints its own shape records for the same gathers and scatter-adds; the records differ only in the
proofs of their side conditions. -/

theorem rows128_eq (x : FVec Ideal Cert.KernelIdeal.S100000x128 .f32) (s : IVec Cert.KernelIdeal.S800000 32) :
    Cert.KernelIdeal.HostValue.rows128 x s = Cert.ReferenceIdeal.RefValue.rows128 x s := rfl
theorem rows256_eq (x : FVec Ideal Cert.KernelIdeal.S100000x256 .f32) (s : IVec Cert.KernelIdeal.S800000 32) :
    Cert.KernelIdeal.HostValue.rows256 x s = Cert.ReferenceIdeal.RefValue.rows256 x s := rfl
theorem aggW_eq (r : FVec Ideal Cert.KernelIdeal.S800000x128 .f32) (d : IVec Cert.KernelIdeal.S800000 32) (w : FVec Ideal Cert.KernelIdeal.S800000 .f32) :
    Cert.KernelIdeal.HostValue.aggW r d w = Cert.ReferenceIdeal.RefValue.aggW r d w := rfl
theorem agg128_eq (r : FVec Ideal Cert.KernelIdeal.S800000x128 .f32) (d : IVec Cert.KernelIdeal.S800000 32) :
    Cert.KernelIdeal.HostValue.agg128 r d = Cert.ReferenceIdeal.RefValue.agg128 r d := rfl
theorem agg256_eq (r : FVec Ideal Cert.KernelIdeal.S800000x256 .f32) (d : IVec Cert.KernelIdeal.S800000 32) :
    Cert.KernelIdeal.HostValue.agg256 r d = Cert.ReferenceIdeal.RefValue.agg256 r d := rfl

/-! ## The network as one function of its eighteen arguments, as each program computes it -/

/-- The kernel program's result: its gathers fill out-of-table rows, its biases pass through a one-row layout. -/
def netK (x0 : FVec Ideal Cert.KernelIdeal.S100000x128 .f32) (x1 : FVec Ideal Cert.KernelIdeal.S50000x128 .f32)
    (s2 d3 s4 d5 : IVec Cert.KernelIdeal.S800000 32) (w6 : FVec Ideal Cert.KernelIdeal.S800000 .f32)
    (W7 : FVec Ideal Cert.KernelIdeal.S128x256 .f32) (b8 : FVec Ideal Cert.KernelIdeal.S256 .f32) (W9 W10 : FVec Ideal Cert.KernelIdeal.S128x256 .f32)
    (b11 : FVec Ideal Cert.KernelIdeal.S256 .f32) (W12 : FVec Ideal Cert.KernelIdeal.S128x256 .f32) (W13 : FVec Ideal Cert.KernelIdeal.S256x256 .f32)
    (b14 : FVec Ideal Cert.KernelIdeal.S256 .f32) (W15 : FVec Ideal Cert.KernelIdeal.S256x256 .f32) (W16 : FVec Ideal Cert.KernelIdeal.S256x128 .f32)
    (b17 : FVec Ideal Cert.KernelIdeal.S128 .f32) : FVec Ideal Cert.KernelIdeal.S50000x128 .f32 :=
  GraphConv.linear
    (GraphConv.layer
      (Cert.KernelIdeal.HostValue.agg256 (Cert.KernelIdeal.HostValue.take256
        (GraphConv.layer (Cert.KernelIdeal.HostValue.aggW (Cert.KernelIdeal.HostValue.take128 x0 s2) d3 w6) x0 W7 W9 (GraphConv.rowOf (Cert.KernelIdeal.HostValue.biasRow256 b8))) s4) d5)
      (GraphConv.layer (Cert.KernelIdeal.HostValue.agg128 (Cert.KernelIdeal.HostValue.take128 x0 s4) d5) x1 W10 W12 (GraphConv.rowOf (Cert.KernelIdeal.HostValue.biasRow256 b11)))
      W13 W15 (GraphConv.rowOf (Cert.KernelIdeal.HostValue.biasRow256 b14)))
    W16 (GraphConv.rowOf (Cert.KernelIdeal.HostValue.biasRow128 b17))

/-- The reference's result. -/
def netR (x0 : FVec Ideal Cert.KernelIdeal.S100000x128 .f32) (x1 : FVec Ideal Cert.KernelIdeal.S50000x128 .f32)
    (s2 d3 s4 d5 : IVec Cert.KernelIdeal.S800000 32) (w6 : FVec Ideal Cert.KernelIdeal.S800000 .f32)
    (W7 : FVec Ideal Cert.KernelIdeal.S128x256 .f32) (b8 : FVec Ideal Cert.KernelIdeal.S256 .f32) (W9 W10 : FVec Ideal Cert.KernelIdeal.S128x256 .f32)
    (b11 : FVec Ideal Cert.KernelIdeal.S256 .f32) (W12 : FVec Ideal Cert.KernelIdeal.S128x256 .f32) (W13 : FVec Ideal Cert.KernelIdeal.S256x256 .f32)
    (b14 : FVec Ideal Cert.KernelIdeal.S256 .f32) (W15 : FVec Ideal Cert.KernelIdeal.S256x256 .f32) (W16 : FVec Ideal Cert.KernelIdeal.S256x128 .f32)
    (b17 : FVec Ideal Cert.KernelIdeal.S128 .f32) : FVec Ideal Cert.KernelIdeal.S50000x128 .f32 :=
  GraphConv.linear
    (GraphConv.layer
      (Cert.ReferenceIdeal.RefValue.agg256 (Cert.ReferenceIdeal.RefValue.rows256
        (GraphConv.layer (Cert.ReferenceIdeal.RefValue.aggW (Cert.ReferenceIdeal.RefValue.rows128 x0 s2) d3 w6) x0 W7 W9 b8) s4) d5)
      (GraphConv.layer (Cert.ReferenceIdeal.RefValue.agg128 (Cert.ReferenceIdeal.RefValue.rows128 x0 s4) d5) x1 W10 W12 b11)
      W13 W15 b14)
    W16 b17

/-- With both source-index vectors inside the table the two are one function: each filling gather is the plain
    gather, each bias row reads back as the bias, and the aggregations are the same host functions. -/
theorem net_eq (x0 : FVec Ideal Cert.KernelIdeal.S100000x128 .f32) (x1 : FVec Ideal Cert.KernelIdeal.S50000x128 .f32)
    (s2 d3 s4 d5 : IVec Cert.KernelIdeal.S800000 32) (w6 : FVec Ideal Cert.KernelIdeal.S800000 .f32)
    (W7 : FVec Ideal Cert.KernelIdeal.S128x256 .f32) (b8 : FVec Ideal Cert.KernelIdeal.S256 .f32) (W9 W10 : FVec Ideal Cert.KernelIdeal.S128x256 .f32)
    (b11 : FVec Ideal Cert.KernelIdeal.S256 .f32) (W12 : FVec Ideal Cert.KernelIdeal.S128x256 .f32) (W13 : FVec Ideal Cert.KernelIdeal.S256x256 .f32)
    (b14 : FVec Ideal Cert.KernelIdeal.S256 .f32) (W15 : FVec Ideal Cert.KernelIdeal.S256x256 .f32) (W16 : FVec Ideal Cert.KernelIdeal.S256x128 .f32)
    (b17 : FVec Ideal Cert.KernelIdeal.S128 .f32)
    (h2 : Cert.KernelIdeal.HostValue.InTable s2) (h4 : Cert.KernelIdeal.HostValue.InTable s4) :
    netK x0 x1 s2 d3 s4 d5 w6 W7 b8 W9 W10 b11 W12 W13 b14 W15 W16 b17 = netR x0 x1 s2 d3 s4 d5 w6 W7 b8 W9 W10 b11 W12 W13 b14 W15 W16 b17 := by
  unfold netK netR
  rw [Cert.KernelIdeal.HostValue.take128_eq _ _ h2, Cert.KernelIdeal.HostValue.take128_eq _ _ h4, Cert.KernelIdeal.HostValue.take256_eq _ _ h4, Cert.KernelIdeal.HostValue.rowOf_biasRow256,
    Cert.KernelIdeal.HostValue.rowOf_biasRow256, Cert.KernelIdeal.HostValue.rowOf_biasRow256, Cert.KernelIdeal.HostValue.rowOf_biasRow128]
  simp only [rows128_eq, rows256_eq, aggW_eq, agg128_eq, agg256_eq]

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

set_option maxHeartbeats 1600000 in
/-- From memories agreeing on the arguments, with every source index inside the table, the kernel program's result
    array and the reference's are the same three layers and linear map of the same aggregations. -/
theorem algebraic : Cert.algebraic_KernelIdeal_ReferenceIdeal := by
  intro m ρ m' ρ' hpre hagree
  refine ⟨fun c => Cert.KernelIdeal.Gen.W9 m ρ c (Proc.devRef .tc Cert.KernelIdeal.main_v21),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v57 (F := Ideal) m' c
    = Cert.KernelIdeal.Gen.W9 m ρ c (Proc.devRef .tc Cert.KernelIdeal.main_v21)
  obtain ⟨hmm, hmd⟩ := Cert.KernelIdeal.HostValue.inTable_of_pre m hpre c
  have hR : Cert.ReferenceIdeal.Value.res_main_v57 (F := Ideal) m' c
      = netR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) :=
    Cert.ReferenceIdeal.RefValue.result_value m' c
  have hK : Cert.KernelIdeal.Gen.W9 m ρ c (Proc.devRef .tc Cert.KernelIdeal.main_v21)
      = netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) :=
    Cert.KernelIdeal.ChainValue.result_value m ρ c
  obtain ⟨e0, e1, e2, e3, e4, e5, e6, e7, e8, e9, e10, e11, e12, e13, e14, e15, e16, e17⟩ := hagree c
  rw [hR, hK]
  simp only [e0, e1, e2, e3, e4, e5, e6, e7, e8, e9, e10, e11, e12, e13, e14, e15, e16, e17]
  exact (net_eq _ _ _ _ _ _ _ _ _ _ _ _ _ _ _ _ _ _ hmm hmd).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
